-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x128 .f32) (main_arg1 : IVec S2048 32) (main_arg2 : FVec F S32768x128 .f32) (main_arg3 : IVec S32768 32) (main_arg4 : FVec F S2048 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S32768x128 .f32 := Host.absf main_arg2
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S2048x1 : Shape := ⟨2, ![2048, 1]⟩
abbrev S1x32768 : Shape := ⟨2, ![1, 32768]⟩
abbrev S256x128 : Shape := ⟨2, ![256, 128]⟩
abbrev S256x1 : Shape := ⟨2, ![256, 1]⟩
abbrev S1x2048 : Shape := ⟨2, ![1, 2048]⟩
abbrev S128x2048 : Shape := ⟨2, ![128, 2048]⟩
abbrev S256x2048 : Shape := ⟨2, ![256, 2048]⟩
abbrev S256 : Shape := ⟨1, ![256]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S32768x128, .f32⟩
  | .hbm, ⟨3, _⟩ => ⟨S32768, .i32⟩
  | .hbm, ⟨4, _⟩ => ⟨S2048, .f32⟩
  | .hbm, ⟨5, _⟩ => ⟨S2048x1, .i32⟩
  | .hbm, ⟨6, _⟩ => ⟨S1x32768, .i32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S256x1, .i32⟩
  | .local _ .vmem, ⟨5, _⟩ => ⟨S256x1, .i32⟩
  | .local _ .vmem, ⟨6, _⟩ => ⟨S1x2048, .i32⟩
  | .local _ .vmem, ⟨7, _⟩ => ⟨S1x2048, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v77 : BitVec 1 := Scalar.cmpi .eq arg1 c15_i32
  let v78 : BitVec 32 := Scalar.extui v77
  let c0_i32_40 : BitVec 32 := 0#32
  let v79 : BitVec 1 := Scalar.cmpi .ne v78 c0_i32_40
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2048_S2048x1 : S2048.ShapeCasts S2048x1
  shapeCasts_S32768_S1x32768 : S32768.ShapeCasts S1x32768
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  reduces_S256x2048_S256 : S256x2048.Reduces [1] S256
  shapeCasts_S256_S256x1 : S256.ShapeCasts S256x1
  natLt_1_32 : 1 < 32
  reducesTo_S2048x1_S_d0_1 : S2048x1.ReducesTo [0, 1] S_
  h_S_ : 0 < S_.numel
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .i32 = 32 ∨ (Rect.block (s := S2048x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .i32 = 32 ∨ (Rect.block (s := S1x32768) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x128 : Shape := ⟨2, ![2048, 128]⟩
abbrev S2048 : Shape := ⟨1, ![2048]⟩
abbrev S32768x128 : Shape := ⟨2, ![32768, 128]⟩
abbrev S32768 : Shape := ⟨1, ![32768]⟩
abbrev S128x32768 : Shape := ⟨2, ![128, 32768]⟩
abbrev S2048x32768 : Shape := ⟨2, ![2048, 32768]⟩
abbrev S2048x1 : Shape := ⟨2, ![2048, 1]⟩
abbrev S1x32768 : Shape := ⟨2, ![1, 32768]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S32768x128, .f32⟩
  | .hbm, ⟨3, _⟩ => ⟨S32768, .i32⟩
  | .hbm, ⟨4, _⟩ => ⟨S2048, .f32⟩
  | .hbm, ⟨5, _⟩ => ⟨S128x32768, .f32⟩
  | .hbm, ⟨6, _⟩ => ⟨S2048x32768, .f32⟩
  | .hbm, ⟨7, _⟩ => ⟨S2048x1, .i32⟩
  | .hbm, ⟨8, _⟩ => ⟨S1x32768, .i32⟩
  | .hbm, ⟨9, _⟩ => ⟨S2048x32768, .i32⟩
  | .hbm, ⟨10, _⟩ => ⟨S2048x32768, .i32⟩
  | .hbm, ⟨11, _⟩ => ⟨S2048x32768, .i1⟩
  | .hbm, ⟨12, _⟩ => ⟨S2048x32768, .f32⟩
  | .hbm, ⟨13, _⟩ => ⟨S_, .f32⟩
  | .hbm, ⟨14, _⟩ => ⟨S2048x32768, .f32⟩
  | .hbm, ⟨15, _⟩ => ⟨S2048x32768, .i1⟩
  | .hbm, ⟨16, _⟩ => ⟨S_, .f32⟩
  | .hbm, ⟨17, _⟩ => ⟨S2048x32768, .f32⟩
  | .hbm, ⟨18, _⟩ => ⟨S2048x32768, .f32⟩
  | .hbm, ⟨19, _⟩ => ⟨S2048x32768, .f32⟩
  | .hbm, ⟨20, _⟩ => ⟨S_, .f32⟩
  | .hbm, ⟨21, _⟩ => ⟨S2048x32768, .f32⟩
  | .hbm, ⟨22, _⟩ => ⟨S2048x32768, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x32768, .f32⟩
  | .hbm, ⟨28, _⟩ => ⟨S2048x32768, .f32⟩
  | .hbm, ⟨29, _⟩ => ⟨S_, .f32⟩
  | .hbm, ⟨30, _⟩ => ⟨S2048x32768, .f32⟩
  | .hbm, ⟨31, _⟩ => ⟨S2048x32768, .f32⟩
  | .hbm, ⟨32, _⟩ => ⟨S2048x32768, .f32⟩
  | .hbm, ⟨33, _⟩ => ⟨S2048x32768, .f32⟩
  | .hbm, ⟨34, _⟩ => ⟨S_, .f32⟩
  | .hbm, ⟨35, _⟩ => ⟨S2048x32768, .f32⟩
  | .hbm, ⟨36, _⟩ => ⟨S2048x32768, .f32⟩
  | .hbm, ⟨37, _⟩ => ⟨S_, .f32⟩
  | .hbm, ⟨38, _⟩ => ⟨S2048x32768, .f32⟩
  | .hbm, ⟨39, _⟩ => ⟨S2048x32768, .f32⟩
  | .hbm, ⟨40, _⟩ => ⟨S_, .f32⟩
  | .hbm, ⟨41, _⟩ => ⟨S2048x32768, .f32⟩
  | .hbm, ⟨42, _⟩ => ⟨S2048x32768, .f32⟩
  | .hbm, ⟨43, _⟩ => ⟨S_, .f32⟩
  | .hbm, ⟨44, _⟩ => ⟨S2048x32768, .f32⟩
  | .hbm, ⟨45, _⟩ => ⟨S2048x32768, .f32⟩
  | .hbm, ⟨46, _⟩ => ⟨S_, .f32⟩
  | .hbm, ⟨47, _⟩ => ⟨S2048x32768, .f32⟩
  | .hbm, ⟨48, _⟩ => ⟨S2048x32768, .f32⟩
  | .hbm, ⟨49, _⟩ => ⟨S_, .f32⟩
  | .hbm, ⟨50, _⟩ => ⟨S2048x32768, .f32⟩
  | .hbm, ⟨51, _⟩ => ⟨S2048x32768, .f32⟩
  | .hbm, ⟨52, _⟩ => ⟨S2048x32768, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x32768, .f32⟩
  | .hbm, ⟨57, _⟩ => ⟨S2048x32768, .f32⟩
  | .hbm, ⟨58, _⟩ => ⟨S2048x32768, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x32768, .f32⟩
  | .hbm, ⟨67, _⟩ => ⟨S2048x32768, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .i1⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x32768, .f32⟩
  | .hbm, ⟨78, _⟩ => ⟨S2048x32768, .f32⟩
  | .hbm, ⟨79, _⟩ => ⟨S2048x32768, .f32⟩
  | .hbm, ⟨80, _⟩ => ⟨S_, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  transposes_S32768x128_S128x32768_1_0 : S32768x128.Transposes [1, 0] S128x32768
  bcast_S2048_S2048x1_0 : S2048.BroadcastsInDim S2048x1 (![0] : Fin 1 → Fin S2048x1.rank)
  bcast_S32768_S1x32768_1 : S32768.BroadcastsInDim S1x32768 (![1] : Fin 1 → Fin S1x32768.rank)
  bcast_S2048x1_S2048x32768_0_1 : S2048x1.BroadcastsInDim S2048x32768 (![0, 1] : Fin 2 → Fin S2048x32768.rank)
  bcast_S1x32768_S2048x32768_0_1 : S1x32768.BroadcastsInDim S2048x32768 (![0, 1] : Fin 2 → Fin S2048x32768.rank)
  bcast_S_S2048x32768 : S_.BroadcastsInDim S2048x32768 (![] : Fin 0 → Fin S2048x32768.rank)
  bcast_S_S2048x1 : S_.BroadcastsInDim S2048x1 (![] : Fin 0 → Fin S2048x1.rank)
  reducesTo_S2048x32768_S2048_d1 : S2048x32768.ReducesTo [1] S2048
  h_S_ : 0 < S_.numel
  bcast_S_S2048 : S_.BroadcastsInDim S2048 (![] : Fin 0 → Fin S2048.rank)
  reducesTo_S2048_S_d0 : S2048.ReducesTo [0] S_
  dot_S2048x128_S128x32768_S2048x32768_1_0_0_1_n_n_wf : DotDims.WF S2048x128 S128x32768 S2048x32768 [1] [0] [0] [1] [] []

variable [Facts₀]

def dot_S2048x128_S128x32768_S2048x32768_1_0_0_1_n_n : DotDims S2048x128 S128x32768 S2048x32768 where
  lhsContracting := [1]
  rhsContracting := [0]
  lhsNonContracting := [0]
  rhsNonContracting := [1]
  lhsBatch := []
  rhsBatch := []
  wf := dot_S2048x128_S128x32768_S2048x32768_1_0_0_1_n_n_wf

class Facts : Prop extends Facts₀ where

variable [Facts]
-- ==== Proof.KNames.lean ====
/-
  Names for the kernel side: each input window's block at a grid point, typed by its literal shape, and what one grid
  point does to the four carried row vectors, as compositions of the body's arithmetic:
  the new running maximum, the rescaled sum of exponentials, the sum of positive similarities, the count of positives,
  and the row losses the last column tile writes.
-/
import proofs.«143448_j45234595561871_1_alg».proof.Proof.Gen.KernelIdeal.Frame.Runs

noncomputable section

namespace Cert.KernelIdeal.Val

open Cert.KernelIdeal Cert.KernelIdeal.Gen Idealize.ShloMosaic Idealize.ShloMosaic.TcCoe Idealize.SL.Sem

variable {F : FTy → Type} [FloatOps F]

section Blocks
variable (m : (ℓ : Loc nD τ sig) → Buf (Elt F) ℓ)

/-- The 256 online feature rows of the point's row block. -/
abbrev b0 (c : Dev nD) (t : Fin cfg0.N) : Vec F S256x128 .f32 := iblk m c 0 t
/-- The 2048 stored feature rows of the point's column tile. -/
abbrev b1 (c : Dev nD) (t : Fin cfg0.N) : Vec F S2048x128 .f32 := iblk m c 1 t
/-- The row block's labels, as a column. -/
abbrev b2 (c : Dev nD) (t : Fin cfg0.N) : Vec F S256x1 .i32 := iblk m c 2 t
/-- The column tile's labels, as a row. -/
abbrev b3 (c : Dev nD) (t : Fin cfg0.N) : Vec F S1x2048 .i32 := iblk m c 3 t
/-- The row block's confidences, as a column. -/
abbrev b4 (c : Dev nD) (t : Fin cfg0.N) : Vec F S256x1 .f32 := iblk m c 4 t

end Blocks

/-- The word of 0.07, the temperature's numerator. -/
abbrev c17 : F .f32 := Scalar.ofBits .f32 0x3D8F5C29#32

variable (x0 : Vec F S256x128 .f32) (x1 : Vec F S2048x128 .f32) (x2 : Vec F S256x1 .i32) (x3 : Vec F S1x2048 .i32)
  (x4 : Vec F S256x1 .f32)

/-- The new running maximum, from the old one. -/
def vM (s0 : Vec F S256x1 .f32) : FVec F S256x1 .f32 :=
  k0_pay11 (k0_pay7 x0 x1) (k0_pay9 x0 x1 x2 x3 x4) c17 s0
/-- The new sum of exponentials, from the old maximum and the old sum. -/
def vL (s0 s1 : Vec F S256x1 .f32) : FVec F S256x1 .f32 :=
  k0_pay12 (k0_pay7 x0 x1) (k0_pay9 x0 x1 x2 x3 x4) c17 s0 s0 s1
/-- The new sum of positive similarities. -/
def vS (s2 : Vec F S256x1 .f32) : FVec F S256x1 .f32 :=
  k0_pay14 (k0_pay7 x0 x1) (k0_pay8 (F := F) x2 x3) (k0_pay9 x0 x1 x2 x3 x4) c17 s2
/-- The new count of positives. -/
def vN (s3 : Vec F S256x1 .f32) : FVec F S256x1 .f32 :=
  k0_pay15 (k0_pay8 (F := F) x2 x3) s3
/-- The row losses, from the count, the sum of exponentials, the confidences, the positive sum and the maximum. -/
def vOut (n l : Vec F S256x1 .f32) (sp mx : Vec F S256x1 .f32) : FVec F S256x1 .f32 :=
  k0_pay2 n l x4 sp mx

end Cert.KernelIdeal.Val

end
-- ==== Proof.KCases.lean ====
/-
  What each of the body's three control cases leaves in the four carried row vectors and in the output block, read off
  the found pieces of the frame's runs: at a row block's first column tile the vectors start from minus infinity and zeros;
  at a middle tile from what the point before left; at the last tile likewise, and the output block receives the row
  losses computed from the just-updated vectors.
-/
import proofs.«143448_j45234595561871_1_alg».proof.Proof.Gen.KernelIdeal.Frame
import proofs.«143448_j45234595561871_1_alg».proof.Proof.KNames
import Idealize.ShloMosaic.Lib.Pipeline.Value
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The origin of a rank-two block, as the constant-zero offset. -/
private theorem hz : (![0, 0] : Fin 2 → Nat) = fun _ => 0 := funext fun a => by fin_cases a <;> rfl

/-! ## The found pieces, one by one

Every carried vector is stored whole, once, at the end of a point's update (at a first tile after a whole reset store),
so what a case leaves in it is the last store's payload; every load reads a whole buffer, so it reads the buffer's
contents; a load that follows a store in the same run reads that store's payload. -/

/-- First tile, running maximum: the maximum of minus infinity and the tile's row maxima. -/
private theorem piece_A_0 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x128 .f32) (x1 : Vec F S2048x128 .f32) (x2 : Vec F S256x1 .i32) (x3 : Vec F S1x2048 .i32) (x4 : Vec F S256x1 .f32) :
    sout0_A_0 c i arg2 harg2 arg3 harg3 arg4 harg4 arg5 harg5 arg6 harg6 arg7 harg7 arg8 harg8 arg9 harg9 arg10 harg10 arg11 harg11 hc0 hc1 x0 x1 x2 x3 x4 = vM x0 x1 x2 x3 x4 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S256x1) hz]
  unfold vM k0_pay1
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self, View.readCov_unit_zero (S := S256x1) _ hz]

/-- First tile, sum of exponentials: the zero sum rescaled from minus infinity, plus the tile's. -/
private theorem piece_A_1 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x128 .f32) (x1 : Vec F S2048x128 .f32) (x2 : Vec F S256x1 .i32) (x3 : Vec F S1x2048 .i32) (x4 : Vec F S256x1 .f32) :
    sout0_A_1 c i arg2 harg2 arg3 harg3 arg4 harg4 arg5 harg5 arg6 harg6 arg7 harg7 arg8 harg8 arg9 harg9 arg10 harg10 arg11 harg11 hc0 hc1 x0 x1 x2 x3 x4 = vL x0 x1 x2 x3 x4 k0_pay3 k0_pay4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S256x1) hz]
  unfold vL
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self, View.readCov_unit_zero (S := S256x1) _ hz]

/-- First tile, positive-similarity sum: zero plus the tile's. -/
private theorem piece_A_2 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x128 .f32) (x1 : Vec F S2048x128 .f32) (x2 : Vec F S256x1 .i32) (x3 : Vec F S1x2048 .i32) (x4 : Vec F S256x1 .f32) :
    sout0_A_2 c i arg2 harg2 arg3 harg3 arg4 harg4 arg5 harg5 arg6 harg6 arg7 harg7 arg8 harg8 arg9 harg9 arg10 harg10 arg11 harg11 hc0 hc1 x0 x1 x2 x3 x4 = vS x0 x1 x2 x3 x4 k0_pay5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S256x1) hz]
  unfold vS
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self, View.readCov_unit_zero (S := S256x1) _ hz]

/-- First tile, positive count: zero plus the tile's. -/
private theorem piece_A_3 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x128 .f32) (x1 : Vec F S2048x128 .f32) (x2 : Vec F S256x1 .i32) (x3 : Vec F S1x2048 .i32) (x4 : Vec F S256x1 .f32) :
    sout0_A_3 c i arg2 harg2 arg3 harg3 arg4 harg4 arg5 harg5 arg6 harg6 arg7 harg7 arg8 harg8 arg9 harg9 arg10 harg10 arg11 harg11 hc0 hc1 x0 x1 x2 x3 x4 = vN x2 x3 k0_pay6 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S256x1) hz]
  unfold vN
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self, View.readCov_unit_zero (S := S256x1) _ hz]

/-- Middle tile, running maximum: the old maximum against the tile's row maxima. -/
private theorem piece_B_0 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_B_0 c i arg2 harg2 arg3 harg3 arg4 harg4 arg5 harg5 arg6 harg6 arg7 harg7 arg8 harg8 arg9 harg9 arg10 harg10 arg11 harg11 hc0 hc1 x0 x1 x2 x3 x4 s0 s1 s2 s3 = vM x0 x1 x2 x3 x4 s0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_B
  dsimp only
  sl_unfold_words
  rw [View.canon_unit_zero hz]
  unfold vM k0_pay1
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Middle tile, sum of exponentials: the old sum rescaled to the new maximum, plus the tile's. -/
private theorem piece_B_1 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_B_1 c i arg2 harg2 arg3 harg3 arg4 harg4 arg5 harg5 arg6 harg6 arg7 harg7 arg8 harg8 arg9 harg9 arg10 harg10 arg11 harg11 hc0 hc1 x0 x1 x2 x3 x4 s0 s1 s2 s3 = vL x0 x1 x2 x3 x4 s0 s1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_B
  dsimp only
  sl_unfold_words
  rw [View.canon_unit_zero hz]
  unfold vL
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Middle tile, positive-similarity sum: the old sum plus the tile's. -/
private theorem piece_B_2 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_B_2 c i arg2 harg2 arg3 harg3 arg4 harg4 arg5 harg5 arg6 harg6 arg7 harg7 arg8 harg8 arg9 harg9 arg10 harg10 arg11 harg11 hc0 hc1 x0 x1 x2 x3 x4 s0 s1 s2 s3 = vS x0 x1 x2 x3 x4 s2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_B
  dsimp only
  sl_unfold_words
  rw [View.canon_unit_zero hz]
  unfold vS
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Middle tile, positive count: the old count plus the tile's. -/
private theorem piece_B_3 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_B_3 c i arg2 harg2 arg3 harg3 arg4 harg4 arg5 harg5 arg6 harg6 arg7 harg7 arg8 harg8 arg9 harg9 arg10 harg10 arg11 harg11 hc0 hc1 x0 x1 x2 x3 x4 s0 s1 s2 s3 = vN x2 x3 s3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_B
  dsimp only
  sl_unfold_words
  rw [View.canon_unit_zero hz]
  unfold vN
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Last tile, running maximum: as at a middle tile. -/
private theorem piece_C_0 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_C_0 c i arg2 harg2 arg3 harg3 arg4 harg4 arg5 harg5 arg6 harg6 arg7 harg7 arg8 harg8 arg9 harg9 arg10 harg10 arg11 harg11 hc0 hc1 x0 x1 x2 x3 x4 s0 s1 s2 s3 = vM x0 x1 x2 x3 x4 s0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_C
  dsimp only
  sl_unfold_words
  rw [View.canon_unit_zero hz]
  unfold vM k0_pay1
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Last tile, sum of exponentials: as at a middle tile. -/
private theorem piece_C_1 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_C_1 c i arg2 harg2 arg3 harg3 arg4 harg4 arg5 harg5 arg6 harg6 arg7 harg7 arg8 harg8 arg9 harg9 arg10 harg10 arg11 harg11 hc0 hc1 x0 x1 x2 x3 x4 s0 s1 s2 s3 = vL x0 x1 x2 x3 x4 s0 s1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_C
  dsimp only
  sl_unfold_words
  rw [View.canon_unit_zero hz]
  unfold vL
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Last tile, positive-similarity sum: as at a middle tile. -/
private theorem piece_C_2 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_C_2 c i arg2 harg2 arg3 harg3 arg4 harg4 arg5 harg5 arg6 harg6 arg7 harg7 arg8 harg8 arg9 harg9 arg10 harg10 arg11 harg11 hc0 hc1 x0 x1 x2 x3 x4 s0 s1 s2 s3 = vS x0 x1 x2 x3 x4 s2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_C
  dsimp only
  sl_unfold_words
  rw [View.canon_unit_zero hz]
  unfold vS
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Last tile, positive count: as at a middle tile. -/
private theorem piece_C_3 (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    sout0_C_3 c i arg2 harg2 arg3 harg3 arg4 harg4 arg5 harg5 arg6 harg6 arg7 harg7 arg8 harg8 arg9 harg9 arg10 harg10 arg11 harg11 hc0 hc1 x0 x1 x2 x3 x4 s0 s1 s2 s3 = vN x2 x3 s3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_C
  dsimp only
  sl_unfold_words
  rw [View.canon_unit_zero hz]
  unfold vN
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self]

/-- Last tile, output block: the row losses, whose loads follow the stores of the same point and so read the new count,
    the new sum of exponentials, the new positive sum and the new maximum. -/
private theorem piece_C_out (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    out0_C_5 c i arg2 harg2 arg3 harg3 arg4 harg4 arg5 harg5 arg6 harg6 arg7 harg7 arg8 harg8 arg9 harg9 arg10 harg10 arg11 harg11 hc0 hc1 x0 x1 x2 x3 x4 s0 s1 s2 s3
      = vOut x4 (vN x2 x3 s3) (vL x0 x1 x2 x3 x4 s0 s1) (vS x0 x1 x2 x3 x4 s2) (vM x0 x1 x2 x3 x4 s0) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 s0 s1 s2 s3)]
  unfold kernelRun0_C
  dsimp only
  sl_unfold_words
  rw [View.canon_unit_zero hz]
  unfold vOut vN vL vS vM k0_pay1
  simp only [View.readAt_eq_ld, harg2.read_unread, harg3.read_unread, harg4.read_unread, harg5.read_unread, harg6.read_unread, harg8.read_unread, harg9.read_unread, harg10.read_unread, harg11.read_unread, View.ld_unit_zero (S := S256x128) hz, View.ld_unit_zero (S := S2048x128) hz, View.ld_unit_zero (S := S256x1) hz, View.ld_unit_zero (S := S1x2048) hz, shapeCast_self, View.readCov_unit_zero (S := S256x1) _ hz]

/-! ## Each case's pieces together -/

/-- A first tile's four vectors together. -/
private theorem pieces_A (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x128 .f32) (x1 : Vec F S2048x128 .f32) (x2 : Vec F S256x1 .i32) (x3 : Vec F S1x2048 .i32) (x4 : Vec F S256x1 .f32) :
    (sout0_A_0 c i arg2 harg2 arg3 harg3 arg4 harg4 arg5 harg5 arg6 harg6 arg7 harg7 arg8 harg8 arg9 harg9 arg10 harg10 arg11 harg11 hc0 hc1 x0 x1 x2 x3 x4, sout0_A_1 c i arg2 harg2 arg3 harg3 arg4 harg4 arg5 harg5 arg6 harg6 arg7 harg7 arg8 harg8 arg9 harg9 arg10 harg10 arg11 harg11 hc0 hc1 x0 x1 x2 x3 x4, sout0_A_2 c i arg2 harg2 arg3 harg3 arg4 harg4 arg5 harg5 arg6 harg6 arg7 harg7 arg8 harg8 arg9 harg9 arg10 harg10 arg11 harg11 hc0 hc1 x0 x1 x2 x3 x4, sout0_A_3 c i arg2 harg2 arg3 harg3 arg4 harg4 arg5 harg5 arg6 harg6 arg7 harg7 arg8 harg8 arg9 harg9 arg10 harg10 arg11 harg11 hc0 hc1 x0 x1 x2 x3 x4)
      = (vM x0 x1 x2 x3 x4 k0_pay3, vL x0 x1 x2 x3 x4 k0_pay3 k0_pay4, vS x0 x1 x2 x3 x4 k0_pay5, vN x2 x3 k0_pay6) := by
  rw [piece_A_0 c i arg2 harg2 arg3 harg3 arg4 harg4 arg5 harg5 arg6 harg6 arg7 harg7 arg8 harg8 arg9 harg9 arg10 harg10 arg11 harg11 hc0 hc1 x0 x1 x2 x3 x4, piece_A_1 c i arg2 harg2 arg3 harg3 arg4 harg4 arg5 harg5 arg6 harg6 arg7 harg7 arg8 harg8 arg9 harg9 arg10 harg10 arg11 harg11 hc0 hc1 x0 x1 x2 x3 x4, piece_A_2 c i arg2 harg2 arg3 harg3 arg4 harg4 arg5 harg5 arg6 harg6 arg7 harg7 arg8 harg8 arg9 harg9 arg10 harg10 arg11 harg11 hc0 hc1 x0 x1 x2 x3 x4, piece_A_3 c i arg2 harg2 arg3 harg3 arg4 harg4 arg5 harg5 arg6 harg6 arg7 harg7 arg8 harg8 arg9 harg9 arg10 harg10 arg11 harg11 hc0 hc1 x0 x1 x2 x3 x4]

/-- A middle tile's four vectors together. -/
private theorem pieces_B (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    (sout0_B_0 c i arg2 harg2 arg3 harg3 arg4 harg4 arg5 harg5 arg6 harg6 arg7 harg7 arg8 harg8 arg9 harg9 arg10 harg10 arg11 harg11 hc0 hc1 x0 x1 x2 x3 x4 s0 s1 s2 s3, sout0_B_1 c i arg2 harg2 arg3 harg3 arg4 harg4 arg5 harg5 arg6 harg6 arg7 harg7 arg8 harg8 arg9 harg9 arg10 harg10 arg11 harg11 hc0 hc1 x0 x1 x2 x3 x4 s0 s1 s2 s3, sout0_B_2 c i arg2 harg2 arg3 harg3 arg4 harg4 arg5 harg5 arg6 harg6 arg7 harg7 arg8 harg8 arg9 harg9 arg10 harg10 arg11 harg11 hc0 hc1 x0 x1 x2 x3 x4 s0 s1 s2 s3, sout0_B_3 c i arg2 harg2 arg3 harg3 arg4 harg4 arg5 harg5 arg6 harg6 arg7 harg7 arg8 harg8 arg9 harg9 arg10 harg10 arg11 harg11 hc0 hc1 x0 x1 x2 x3 x4 s0 s1 s2 s3)
      = (vM x0 x1 x2 x3 x4 s0, vL x0 x1 x2 x3 x4 s0 s1, vS x0 x1 x2 x3 x4 s2, vN x2 x3 s3) := by
  rw [piece_B_0 c i arg2 harg2 arg3 harg3 arg4 harg4 arg5 harg5 arg6 harg6 arg7 harg7 arg8 harg8 arg9 harg9 arg10 harg10 arg11 harg11 hc0 hc1 x0 x1 x2 x3 x4 s0 s1 s2 s3, piece_B_1 c i arg2 harg2 arg3 harg3 arg4 harg4 arg5 harg5 arg6 harg6 arg7 harg7 arg8 harg8 arg9 harg9 arg10 harg10 arg11 harg11 hc0 hc1 x0 x1 x2 x3 x4 s0 s1 s2 s3, piece_B_2 c i arg2 harg2 arg3 harg3 arg4 harg4 arg5 harg5 arg6 harg6 arg7 harg7 arg8 harg8 arg9 harg9 arg10 harg10 arg11 harg11 hc0 hc1 x0 x1 x2 x3 x4 s0 s1 s2 s3, piece_B_3 c i arg2 harg2 arg3 harg3 arg4 harg4 arg5 harg5 arg6 harg6 arg7 harg7 arg8 harg8 arg9 harg9 arg10 harg10 arg11 harg11 hc0 hc1 x0 x1 x2 x3 x4 s0 s1 s2 s3]

/-- The last tile's four vectors together. -/
private theorem pieces_C (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    (sout0_C_0 c i arg2 harg2 arg3 harg3 arg4 harg4 arg5 harg5 arg6 harg6 arg7 harg7 arg8 harg8 arg9 harg9 arg10 harg10 arg11 harg11 hc0 hc1 x0 x1 x2 x3 x4 s0 s1 s2 s3, sout0_C_1 c i arg2 harg2 arg3 harg3 arg4 harg4 arg5 harg5 arg6 harg6 arg7 harg7 arg8 harg8 arg9 harg9 arg10 harg10 arg11 harg11 hc0 hc1 x0 x1 x2 x3 x4 s0 s1 s2 s3, sout0_C_2 c i arg2 harg2 arg3 harg3 arg4 harg4 arg5 harg5 arg6 harg6 arg7 harg7 arg8 harg8 arg9 harg9 arg10 harg10 arg11 harg11 hc0 hc1 x0 x1 x2 x3 x4 s0 s1 s2 s3, sout0_C_3 c i arg2 harg2 arg3 harg3 arg4 harg4 arg5 harg5 arg6 harg6 arg7 harg7 arg8 harg8 arg9 harg9 arg10 harg10 arg11 harg11 hc0 hc1 x0 x1 x2 x3 x4 s0 s1 s2 s3)
      = (vM x0 x1 x2 x3 x4 s0, vL x0 x1 x2 x3 x4 s0 s1, vS x0 x1 x2 x3 x4 s2, vN x2 x3 s3) := by
  rw [piece_C_0 c i arg2 harg2 arg3 harg3 arg4 harg4 arg5 harg5 arg6 harg6 arg7 harg7 arg8 harg8 arg9 harg9 arg10 harg10 arg11 harg11 hc0 hc1 x0 x1 x2 x3 x4 s0 s1 s2 s3, piece_C_1 c i arg2 harg2 arg3 harg3 arg4 harg4 arg5 harg5 arg6 harg6 arg7 harg7 arg8 harg8 arg9 harg9 arg10 harg10 arg11 harg11 hc0 hc1 x0 x1 x2 x3 x4 s0 s1 s2 s3, piece_C_2 c i arg2 harg2 arg3 harg3 arg4 harg4 arg5 harg5 arg6 harg6 arg7 harg7 arg8 harg8 arg9 harg9 arg10 harg10 arg11 harg11 hc0 hc1 x0 x1 x2 x3 x4 s0 s1 s2 s3, piece_C_3 c i arg2 harg2 arg3 harg3 arg4 harg4 arg5 harg5 arg6 harg6 arg7 harg7 arg8 harg8 arg9 harg9 arg10 harg10 arg11 harg11 hc0 hc1 x0 x1 x2 x3 x4 s0 s1 s2 s3]

/-- The last tile's output block over that tile's own four vectors. -/
private theorem pieces_C_out (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S256x1 .i32) (harg4 : arg4.IsWhole) (arg5 : Memref sig .tc .vmem S1x2048 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x128 .f32) (x1 : Vec F S2048x128 .f32) (x2 : Vec F S256x1 .i32) (x3 : Vec F S1x2048 .i32) (x4 : Vec F S256x1 .f32) (s0 s1 s2 s3 : Vec F S256x1 .f32) :
    out0_C_5 c i arg2 harg2 arg3 harg3 arg4 harg4 arg5 harg5 arg6 harg6 arg7 harg7 arg8 harg8 arg9 harg9 arg10 harg10 arg11 harg11 hc0 hc1 x0 x1 x2 x3 x4 s0 s1 s2 s3
      = vOut x4 (sout0_C_3 c i arg2 harg2 arg3 harg3 arg4 harg4 arg5 harg5 arg6 harg6 arg7 harg7 arg8 harg8 arg9 harg9 arg10 harg10 arg11 harg11 hc0 hc1 x0 x1 x2 x3 x4 s0 s1 s2 s3) (sout0_C_1 c i arg2 harg2 arg3 harg3 arg4 harg4 arg5 harg5 arg6 harg6 arg7 harg7 arg8 harg8 arg9 harg9 arg10 harg10 arg11 harg11 hc0 hc1 x0 x1 x2 x3 x4 s0 s1 s2 s3) (sout0_C_2 c i arg2 harg2 arg3 harg3 arg4 harg4 arg5 harg5 arg6 harg6 arg7 harg7 arg8 harg8 arg9 harg9 arg10 harg10 arg11 harg11 hc0 hc1 x0 x1 x2 x3 x4 s0 s1 s2 s3) (sout0_C_0 c i arg2 harg2 arg3 harg3 arg4 harg4 arg5 harg5 arg6 harg6 arg7 harg7 arg8 harg8 arg9 harg9 arg10 harg10 arg11 harg11 hc0 hc1 x0 x1 x2 x3 x4 s0 s1 s2 s3) := by
  rw [piece_C_out c i arg2 harg2 arg3 harg3 arg4 harg4 arg5 harg5 arg6 harg6 arg7 harg7 arg8 harg8 arg9 harg9 arg10 harg10 arg11 harg11 hc0 hc1 x0 x1 x2 x3 x4 s0 s1 s2 s3, piece_C_0 c i arg2 harg2 arg3 harg3 arg4 harg4 arg5 harg5 arg6 harg6 arg7 harg7 arg8 harg8 arg9 harg9 arg10 harg10 arg11 harg11 hc0 hc1 x0 x1 x2 x3 x4 s0 s1 s2 s3, piece_C_1 c i arg2 harg2 arg3 harg3 arg4 harg4 arg5 harg5 arg6 harg6 arg7 harg7 arg8 harg8 arg9 harg9 arg10 harg10 arg11 harg11 hc0 hc1 x0 x1 x2 x3 x4 s0 s1 s2 s3, piece_C_2 c i arg2 harg2 arg3 harg3 arg4 harg4 arg5 harg5 arg6 harg6 arg7 harg7 arg8 harg8 arg9 harg9 arg10 harg10 arg11 harg11 hc0 hc1 x0 x1 x2 x3 x4 s0 s1 s2 s3, piece_C_3 c i arg2 harg2 arg3 harg3 arg4 harg4 arg5 harg5 arg6 harg6 arg7 harg7 arg8 harg8 arg9 harg9 arg10 harg10 arg11 harg11 hc0 hc1 x0 x1 x2 x3 x4 s0 s1 s2 s3]

/-! ## The three control cases -/

/-- A row block's first column tile: the carried vectors from their initial values. -/
theorem case_A (c : Dev nD) (t : Fin cfg0.N) (h0 : t.val % 16 = 0) :
    (outsAt0 m c t.val t.isLt).2
      = (vM (b0 m c t) (b1 m c t) (b2 m c t) (b3 m c t) (b4 m c t) k0_pay3,
         vL (b0 m c t) (b1 m c t) (b2 m c t) (b3 m c t) (b4 m c t) k0_pay3 k0_pay4,
         vS (b0 m c t) (b1 m c t) (b2 m c t) (b3 m c t) (b4 m c t) k0_pay5,
         vN (b2 m c t) (b3 m c t) k0_pay6) := by
  have h1 : ¬t.val % 16 = 15 := by omega
  rw [outsAt0_A m c t h0 h1]
  dsimp only
  exact pieces_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (b0 m c t) (b1 m c t) (b2 m c t) (b3 m c t) (b4 m c t)

/-- A middle column tile: the carried vectors from what the point before left. -/
theorem case_B (c : Dev nD) (t : Fin cfg0.N) (h0 : ¬t.val % 16 = 0) (h1 : ¬t.val % 16 = 15) :
    (outsAt0 m c t.val t.isLt).2
      = (vM (b0 m c t) (b1 m c t) (b2 m c t) (b3 m c t) (b4 m c t)
            (outsAt0 m c (t.val - 1) (Nat.lt_of_le_of_lt (Nat.sub_le _ _) t.isLt)).2.1,
         vL (b0 m c t) (b1 m c t) (b2 m c t) (b3 m c t) (b4 m c t)
            (outsAt0 m c (t.val - 1) (Nat.lt_of_le_of_lt (Nat.sub_le _ _) t.isLt)).2.1
            (outsAt0 m c (t.val - 1) (Nat.lt_of_le_of_lt (Nat.sub_le _ _) t.isLt)).2.2.1,
         vS (b0 m c t) (b1 m c t) (b2 m c t) (b3 m c t) (b4 m c t)
            (outsAt0 m c (t.val - 1) (Nat.lt_of_le_of_lt (Nat.sub_le _ _) t.isLt)).2.2.2.1,
         vN (b2 m c t) (b3 m c t)
            (outsAt0 m c (t.val - 1) (Nat.lt_of_le_of_lt (Nat.sub_le _ _) t.isLt)).2.2.2.2) := by
  rw [outsAt0_B m c t h0 h1]
  dsimp only
  exact pieces_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) (b0 m c t) (b1 m c t) (b2 m c t) (b3 m c t) (b4 m c t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last column tile: the carried vectors as at a middle tile. -/
theorem case_C (c : Dev nD) (t : Fin cfg0.N) (h0 : ¬t.val % 16 = 0) (h1 : t.val % 16 = 15) :
    (outsAt0 m c t.val t.isLt).2
      = (vM (b0 m c t) (b1 m c t) (b2 m c t) (b3 m c t) (b4 m c t)
            (outsAt0 m c (t.val - 1) (Nat.lt_of_le_of_lt (Nat.sub_le _ _) t.isLt)).2.1,
         vL (b0 m c t) (b1 m c t) (b2 m c t) (b3 m c t) (b4 m c t)
            (outsAt0 m c (t.val - 1) (Nat.lt_of_le_of_lt (Nat.sub_le _ _) t.isLt)).2.1
            (outsAt0 m c (t.val - 1) (Nat.lt_of_le_of_lt (Nat.sub_le _ _) t.isLt)).2.2.1,
         vS (b0 m c t) (b1 m c t) (b2 m c t) (b3 m c t) (b4 m c t)
            (outsAt0 m c (t.val - 1) (Nat.lt_of_le_of_lt (Nat.sub_le _ _) t.isLt)).2.2.2.1,
         vN (b2 m c t) (b3 m c t)
            (outsAt0 m c (t.val - 1) (Nat.lt_of_le_of_lt (Nat.sub_le _ _) t.isLt)).2.2.2.2) := by
  rw [outsAt0_C m c t h0 h1]
  dsimp only
  exact pieces_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (b0 m c t) (b1 m c t) (b2 m c t) (b3 m c t) (b4 m c t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The last column tile's output block: the row losses of the vectors it has just updated. -/
theorem case_C_out (c : Dev nD) (t : Fin cfg0.N) (h0 : ¬t.val % 16 = 0) (h1 : t.val % 16 = 15) :
    (outsAt0 m c t.val t.isLt).1
      = vOut (b4 m c t) (outsAt0 m c t.val t.isLt).2.2.2.2 (outsAt0 m c t.val t.isLt).2.2.1
          (outsAt0 m c t.val t.isLt).2.2.2.1 (outsAt0 m c t.val t.isLt).2.1 := by
  rw [outsAt0_C m c t h0 h1]
  dsimp only
  exact pieces_C_out (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (b0 m c t) (b1 m c t) (b2 m c t) (b3 m c t) (b4 m c t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Val

end
-- ==== Proof.Spec.lean ====
/-
  The mathematics of the confidence-weighted contrastive loss, free of any program.

  For a row r (an online sample) and a column q (a stored sample) the raw similarity is the inner product of the two
  feature rows; the two samples are "positive" when their labels agree. The similarity is divided by a temperature that
  depends on the raw similarity, the label agreement and the row's confidence. Per row the loss is minus the
  confidence-weighted sum, over the positive columns, of the log-softmax of the scaled similarities, divided by the
  number of positives (or by one when there is none); the result is the mean of the rows' losses.

  Two ways of computing a row's loss are stated here: the direct one (one maximum, one sum of exponentials over the whole
  row) and the streaming one (the columns visited tile by tile, carrying the running maximum, the sum of exponentials
  rescaled to the running maximum, the sum of positive similarities and the count of positives).
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- The extended real a 32-bit float word denotes. -/
abbrev w (b : BitVec 32) : EReal := Ideal.ofBits .f32 b

/-- The similarity s over its temperature: with f = s for a positive pair and 1 - s otherwise, the weight is
    0.1 + 0.9 * sigmoid ((0.7 * f + 0.3 * cf) * 2), the temperature 0.07 / (weight + 0.01), the value s / temperature. -/
def simOf (s : EReal) (b : BitVec 1) (cf : EReal) : EReal :=
  Ideal.div s (Ideal.div (w 0x3D8F5C29#32)
    ((w 0x3DCCCCCD#32 + w 0x3F666666#32 * Ideal.logistic
        ((w 0x3F333333#32 * (if b = 1 then s else w 0x3F800000#32 - s) + w 0x3E99999A#32 * cf) * w 0x40000000#32))
      + w 0x3C23D70A#32))

/-- A label agreement bit as a number: one or zero. -/
def maskOf (b : BitVec 1) : EReal := ((b.toNat : ℝ) : EReal)

/-- What the streaming computation carries for one row: the running maximum, the sum of exponentials relative to it,
    the sum of positive similarities, the count of positives. -/
structure St where
  mx : EReal
  se : EReal
  sp : EReal
  np : EReal

/-- Before the first tile: the maximum at minus infinity, the sums at zero. -/
def st0 : St := ⟨w 0xFF800000#32, w 0x00000000#32, w 0x00000000#32, w 0x00000000#32⟩

/-- One tile of n columns with similarities sv and mask values mv: the maximum grows, the old sum of exponentials is
    rescaled to the new maximum and the tile's exponentials are added, the two plain sums grow. -/
def step {n : ℕ} (st : St) (sv mv : Fin n → EReal) : St :=
  let m' := max st.mx ((Finset.univ : Finset (Fin n)).fold max (w 0xFF800000#32) sv)
  ⟨m', Ideal.exp (st.mx - m') * st.se + ∑ k, Ideal.exp (sv k - m'), st.sp + ∑ k, mv k * sv k, st.np + ∑ k, mv k⟩

/-- The count of positives used as divisor: one when the count is below 1e-6. -/
def npc (np : EReal) : EReal := if Ideal.cmp .olt np (w 0x358637BD#32) = 1 then w 0x3F800000#32 else np

/-- The row's loss from what the streaming computation carried, for a row of confidence cf. -/
def fin (st : St) (cf : EReal) : EReal :=
  Ideal.div (w 0x00000000#32 - cf * ((st.sp - st.np * st.mx) - st.np * Ideal.log (st.se + w 0x322BCC77#32))) (npc st.np)

/-- The row's loss computed directly over all N columns. -/
def refRow {N : ℕ} (s mu : Fin N → EReal) (cf : EReal) : EReal :=
  let M := (Finset.univ : Finset (Fin N)).fold max (w 0xFF800000#32) s
  let L := Ideal.log ((w 0x00000000#32 + ∑ q, Ideal.exp (s q - M)) + w 0x322BCC77#32)
  Ideal.div (-(w 0x00000000#32 + ∑ q, (cf * mu q) * ((s q - M) - L))) (npc (w 0x00000000#32 + ∑ q, mu q))

/-- A function on the first N naturals, extended by zero. -/
def ext {N : ℕ} (f : Fin N → EReal) (q : ℕ) : EReal := if h : q < N then f ⟨q, h⟩ else 0

theorem ext_apply {N : ℕ} (f : Fin N → EReal) (q : ℕ) (h : q < N) : ext f q = f ⟨q, h⟩ := dif_pos h

/-- Tile j of a row of 32768 columns: its 2048 columns from 2048 * j on. -/
def tile (f : Fin 32768 → EReal) (j : ℕ) : Fin 2048 → EReal := fun k => ext f (2048 * j + k.val)

/-- What the streaming computation carries after tiles 0 to j. -/
def foldState (s mu : Fin 32768 → EReal) : ℕ → St
  | 0 => step st0 (tile s 0) (tile mu 0)
  | j + 1 => step (foldState s mu j) (tile s (j + 1)) (tile mu (j + 1))

/-! ## Over whole arrays -/

section Arrays

variable (X : (⟨2, ![2048, 128]⟩ : Shape).Idx → EReal) (Yon : (⟨1, ![2048]⟩ : Shape).Idx → BitVec 32)
  (Z : (⟨2, ![32768, 128]⟩ : Shape).Idx → EReal) (Yoff : (⟨1, ![32768]⟩ : Shape).Idx → BitVec 32)
  (Cf : (⟨1, ![2048]⟩ : Shape).Idx → EReal)

/-- The raw similarity of online row r and stored row q. -/
def rawA (r : Fin 2048) (q : Fin 32768) : EReal := ∑ d : Fin 128, X (ix2 r d) * Z (ix2 q d)
/-- Whether their labels agree. -/
def eqA (r : Fin 2048) (q : Fin 32768) : BitVec 1 := IntOp.cmpi .eq (Yon (ix1 r)) (Yoff (ix1 q))
/-- Row r's scaled similarities. -/
def simA (r : Fin 2048) : Fin 32768 → EReal := fun q => simOf (rawA X Z r q) (eqA Yon Yoff r q) (Cf (ix1 r))
/-- Row r's mask values. -/
def maskA (r : Fin 2048) : Fin 32768 → EReal := fun q => maskOf (eqA Yon Yoff r q)
/-- Row r's loss, streamed over sixteen tiles. -/
def kerRow (r : Fin 2048) : EReal := fin (foldState (simA X Yon Z Yoff Cf r) (maskA Yon Yoff r) 15) (Cf (ix1 r))
/-- Row r's loss, computed directly. -/
def refRowA (r : Fin 2048) : EReal := refRow (simA X Yon Z Yoff Cf r) (maskA Yon Yoff r) (Cf (ix1 r))
/-- The mean of the streamed rows' losses. -/
def kerOut : EReal := Ideal.div (w 0x00000000#32 + ∑ r : Fin 2048, kerRow X Yon Z Yoff Cf r) (w 0x45000000#32)
/-- The mean of the directly computed rows' losses. -/
def refOut : EReal := Ideal.div (w 0x00000000#32 + ∑ r : Fin 2048, refRowA X Yon Z Yoff Cf r) (w 0x45000000#32)

end Arrays

/-! ## Over one grid point's blocks: 256 rows against 2048 columns -/

section Blocks

variable (x0 : (⟨2, ![256, 128]⟩ : Shape).Idx → EReal) (x1 : (⟨2, ![2048, 128]⟩ : Shape).Idx → EReal)
  (x2 : (⟨2, ![256, 1]⟩ : Shape).Idx → BitVec 32) (x3 : (⟨2, ![1, 2048]⟩ : Shape).Idx → BitVec 32)
  (x4 : (⟨2, ![256, 1]⟩ : Shape).Idx → EReal)

/-- The raw similarity of the block's row p and column k. -/
def rawB (p : Fin 256) (k : Fin 2048) : EReal := ∑ d : Fin 128, x0 (ix2 p d) * x1 (ix2 k d)
/-- Whether their labels agree. -/
def eqB (p : Fin 256) (k : Fin 2048) : BitVec 1 := IntOp.cmpi .eq (x2 (ix2 p (0 : Fin 1))) (x3 (ix2 (0 : Fin 1) k))
/-- The block row's scaled similarities. -/
def simB (p : Fin 256) : Fin 2048 → EReal := fun k => simOf (rawB x0 x1 p k) (eqB x2 x3 p k) (x4 (ix2 p (0 : Fin 1)))
/-- The block row's mask values. -/
def maskB (p : Fin 256) : Fin 2048 → EReal := fun k => maskOf (eqB x2 x3 p k)

end Blocks

end Cert.Contrast

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KPay.lean ====
/-
  The body's arithmetic read at a row of the 256-row block, over the extended reals: one grid point applies one step
  of the streaming computation to each row, with the row's 2048 scaled similarities and mask values of this column tile,
  and the last tile's store holds each row's loss.
-/
import proofs.«143448_j45234595561871_1_alg».proof.Proof.KNames
import proofs.«143448_j45234595561871_1_alg».proof.Proof.Spec
import proofs.«143448_j45234595561871_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Cert.Contrast

variable (x0 : Vec Ideal S256x128 .f32) (x1 : Vec Ideal S2048x128 .f32) (x2 : Vec Ideal S256x1 .i32)
  (x3 : Vec Ideal S1x2048 .i32) (x4 : Vec Ideal S256x1 .f32)

/-- The kernel's contraction is the plain one: rows by inner times inner by columns, no batch axis. -/
private theorem dot_eq_plain :
    dot_S256x128_S128x2048_S256x2048_1_0_0_1_n_n = DotDims.plain 256 128 2048 := rfl

/-- The raw similarities: the matrix product of the row block with the transposed column tile, at a row and a column. -/
private theorem pay7_apply (p : Fin 256) (k : Fin 2048) :
    k0_pay7 x0 x1 (ix2 p k) = ∑ d : Fin 128, x0 (ix2 p d) * x1 (ix2 k d) := by
  unfold k0_pay7
  show FloatOps.matmul dot_S256x128_S128x2048_S256x2048_1_0_0_1_n_n none _ _
    (constant S256x2048 .f32 0x00000000#32) (ix2 p k) = _
  rw [dot_eq_plain]
  refine (Cert.PlainDot.matmul_zero_apply none _ _ (ix2 p k)).trans ?_
  refine Finset.sum_congr rfl fun d _ => ?_
  refine congrArg (x0 (ix2 p d) * ·) ?_
  exact transpose_ix2_apply _ _ d k

/-- The label agreement of a row and a column. -/
private theorem pay8_apply (p : Fin 256) (k : Fin 2048) :
    k0_pay8 (F := Ideal) x2 x3 (ix2 p k) = eqB x2 x3 p k := by
  unfold k0_pay8 eqB
  rw [shapeCast_self, shapeCast_self]
  show IntOp.cmpi .eq (broadcastTo S256x2048 x2 _ (ix2 p k)) (broadcastTo S256x2048 x3 _ (ix2 p k)) = _
  rw [broadcastTo_1b_ab_apply]
  refine congrArg (IntOp.cmpi .eq · _) ?_
  refine broadcastTo_apply x2 _ (ix2 p k) (ix2 p (0 : Fin 1)) fun ax => ?_
  match ax with
  | ⟨0, _⟩ => rfl
  | ⟨1, _⟩ => rfl

/-- A column broadcast over the lanes reads, at a row and any column, the column's entry of that row. -/
private theorem bcol_apply {α : Type} (v : S256x1.Idx → α) (h : S256x1.Broadcasts S256x2048) (p : Fin 256) (k : Fin 2048) :
    broadcastTo S256x2048 v h (ix2 p k) = v (ix2 p (0 : Fin 1)) :=
  broadcastTo_apply v h (ix2 p k) (ix2 p (0 : Fin 1)) fun ax =>
    match ax with
    | ⟨0, _⟩ => rfl
    | ⟨1, _⟩ => rfl

/-- The scaled similarity of a row and a column: the raw similarity over its temperature. -/
private theorem sim_apply (p : Fin 256) (k : Fin 2048) :
    k0_pay10 (k0_pay7 x0 x1) (k0_pay9 x0 x1 x2 x3 x4) c17 (ix2 p k) = simB x0 x1 x2 x3 x4 p k := by
  have h25 : broadcastTo S256x2048 (mulf (broadcast S256x1 (Scalar.ofBits (F := Ideal) .f32 0x3E99999A#32))
        (shapeCast S256x1 x4 shapeCasts_S256x1_S256x1)) broadcasts_S256x1_S256x2048 (ix2 p k)
      = w 0x3E99999A#32 * x4 (ix2 p (0 : Fin 1)) := by
    rw [shapeCast_self]
    exact bcol_apply _ _ p k
  unfold k0_pay10 k0_pay9 simB simOf
  show Ideal.div (k0_pay7 x0 x1 (ix2 p k)) (Ideal.div (w 0x3D8F5C29#32)
      ((w 0x3DCCCCCD#32 + w 0x3F666666#32 * Ideal.logistic
          ((w 0x3F333333#32 * Scalar.select (k0_pay8 (F := Ideal) x2 x3 (ix2 p k)) (k0_pay7 x0 x1 (ix2 p k))
                (w 0x3F800000#32 - k0_pay7 x0 x1 (ix2 p k))
              + broadcastTo S256x2048 (mulf (broadcast S256x1 (Scalar.ofBits (F := Ideal) .f32 0x3E99999A#32))
                  (shapeCast S256x1 x4 shapeCasts_S256x1_S256x1)) broadcasts_S256x1_S256x2048 (ix2 p k))
            * w 0x40000000#32))
        + w 0x3C23D70A#32)) = _
  rw [h25, pay7_apply, pay8_apply]
  rfl

/-- The label agreement as a number, at a row and a column. -/
private theorem mask_apply (p : Fin 256) (k : Fin 2048) :
    k0_pay13 (F := Ideal) (k0_pay8 (F := Ideal) x2 x3) (ix2 p k) = maskB x2 x3 p k := by
  unfold k0_pay13 maskB maskOf
  show (((((k0_pay8 (F := Ideal) x2 x3 (ix2 p k)).setWidth 32).toInt : ℝ)) : EReal) = _
  rw [pay8_apply]
  generalize eqB x2 x3 p k = b
  have hb : ((b.setWidth 32).toInt : ℝ) = (b.toNat : ℝ) := by
    have : (b.setWidth 32).toInt = (b.toNat : ℤ) := by revert b; decide
    rw [this]; norm_cast
  rw [hb]

/-- The reduced index with a lane coordinate inserted is the row and that lane. -/
private theorem lift_eq (h : S256x2048.Reduces [1] S256) (p : Fin 256) (k : Fin 2048) :
    h.lift (ix1 p) k = ix2 p k :=
  funext fun a => Fin.ext (by
    match a with
    | ⟨0, _⟩ => rfl
    | ⟨1, _⟩ => rfl)

/-- A vector over the rows cast to a column reads, at a row, the vector's entry. -/
private theorem cast_col_apply {α : Type} (v : S256.Idx → α) (h : S256.ShapeCasts S256x1) (p : Fin 256) :
    shapeCast S256x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The sum over the lanes, kept as a column, at a row. -/
private theorem rowsum_apply (v : FVec Ideal S256x2048 .f32) (p : Fin 256) :
    shapeCast S256x1 (multiReduction (F := Ideal) .add [1] S256 v 0x00000000#32 reduces_S256x2048_S256 (.inl rfl) rfl)
        shapeCasts_S256_S256x1 (ix2 p (0 : Fin 1))
      = ∑ k : Fin 2048, v (ix2 p k) := by
  refine (cast_col_apply _ _ p).trans ?_
  refine (Ideal.multiReduction_add_single v _ _ _ _ (ix1 p)).trans ?_
  exact Finset.sum_congr rfl fun k _ => congrArg v (lift_eq _ p k)

/-- The maximum over the lanes, kept as a column, at a row. -/
private theorem rowmax_apply (v : FVec Ideal S256x2048 .f32) (p : Fin 256) :
    shapeCast S256x1 (multiReduction (F := Ideal) .maximumf [1] S256 v 0xFF800000#32 reduces_S256x2048_S256 (.inl rfl) rfl)
        shapeCasts_S256_S256x1 (ix2 p (0 : Fin 1))
      = (Finset.univ : Finset (Fin 2048)).fold max (w 0xFF800000#32) fun k => v (ix2 p k) := by
  refine (cast_col_apply _ _ p).trans ?_
  refine (Ideal.multiReduction_maximumf_single v _ _ _ _ (ix1 p)).trans ?_
  refine congrArg ((Finset.univ : Finset (Fin 2048)).fold max (w 0xFF800000#32)) ?_
  exact funext fun k => congrArg v (lift_eq _ p k)

/-- The new running maximum at a row: the old one against the maximum of the row's scaled similarities. -/
private theorem pay11_apply (s0 : Vec Ideal S256x1 .f32) (p : Fin 256) :
    k0_pay11 (k0_pay7 x0 x1) (k0_pay9 x0 x1 x2 x3 x4) c17 s0 (ix2 p (0 : Fin 1))
      = max (s0 (ix2 p (0 : Fin 1)))
          ((Finset.univ : Finset (Fin 2048)).fold max (w 0xFF800000#32) (simB x0 x1 x2 x3 x4 p)) := by
  unfold k0_pay11
  show max (s0 (ix2 p (0 : Fin 1)))
      (shapeCast S256x1 (multiReduction (F := Ideal) .maximumf [1] S256
          (k0_pay10 (k0_pay7 x0 x1) (k0_pay9 x0 x1 x2 x3 x4) c17) 0xFF800000#32 reduces_S256x2048_S256 (.inl rfl) rfl)
        shapeCasts_S256_S256x1 (ix2 p (0 : Fin 1))) = _
  rw [rowmax_apply]
  refine congrArg (max _) ?_
  refine congrArg ((Finset.univ : Finset (Fin 2048)).fold max (w 0xFF800000#32)) ?_
  exact funext fun k => sim_apply x0 x1 x2 x3 x4 p k

/-- The new sum of exponentials at a row: the old sum rescaled to the new maximum plus the row's exponentials. -/
private theorem pay12_apply (s0 s1 : Vec Ideal S256x1 .f32) (p : Fin 256) :
    k0_pay12 (k0_pay7 x0 x1) (k0_pay9 x0 x1 x2 x3 x4) c17 s0 s0 s1 (ix2 p (0 : Fin 1))
      = Ideal.exp (s0 (ix2 p (0 : Fin 1)) - max (s0 (ix2 p (0 : Fin 1)))
            ((Finset.univ : Finset (Fin 2048)).fold max (w 0xFF800000#32) (simB x0 x1 x2 x3 x4 p)))
          * s1 (ix2 p (0 : Fin 1))
        + ∑ k : Fin 2048, Ideal.exp (simB x0 x1 x2 x3 x4 p k - max (s0 (ix2 p (0 : Fin 1)))
            ((Finset.univ : Finset (Fin 2048)).fold max (w 0xFF800000#32) (simB x0 x1 x2 x3 x4 p))) := by
  unfold k0_pay12
  rw [shapeCast_self]
  show Ideal.exp (s0 (ix2 p (0 : Fin 1))
          - k0_pay11 (k0_pay7 x0 x1) (k0_pay9 x0 x1 x2 x3 x4) c17 s0 (ix2 p (0 : Fin 1))) * s1 (ix2 p (0 : Fin 1))
      + shapeCast S256x1 (multiReduction (F := Ideal) .add [1] S256
          (Idealize.ShloMosaic.exp (subf (k0_pay10 (k0_pay7 x0 x1) (k0_pay9 x0 x1 x2 x3 x4) c17)
            (broadcastTo S256x2048 (k0_pay11 (k0_pay7 x0 x1) (k0_pay9 x0 x1 x2 x3 x4) c17 s0)
              broadcasts_S256x1_S256x2048)))
          0x00000000#32 reduces_S256x2048_S256 (.inl rfl) rfl) shapeCasts_S256_S256x1 (ix2 p (0 : Fin 1)) = _
  rw [rowsum_apply, pay11_apply]
  refine congrArg (_ + ·) (Finset.sum_congr rfl fun k _ => ?_)
  show Ideal.exp (k0_pay10 (k0_pay7 x0 x1) (k0_pay9 x0 x1 x2 x3 x4) c17 (ix2 p k)
      - broadcastTo S256x2048 (k0_pay11 (k0_pay7 x0 x1) (k0_pay9 x0 x1 x2 x3 x4) c17 s0)
          broadcasts_S256x1_S256x2048 (ix2 p k)) = _
  rw [bcol_apply, sim_apply, pay11_apply]

/-- The new sum of positive similarities at a row. -/
private theorem pay14_apply (s2 : Vec Ideal S256x1 .f32) (p : Fin 256) :
    k0_pay14 (k0_pay7 x0 x1) (k0_pay8 (F := Ideal) x2 x3) (k0_pay9 x0 x1 x2 x3 x4) c17 s2 (ix2 p (0 : Fin 1))
      = s2 (ix2 p (0 : Fin 1)) + ∑ k : Fin 2048, maskB x2 x3 p k * simB x0 x1 x2 x3 x4 p k := by
  unfold k0_pay14
  rw [shapeCast_self]
  show s2 (ix2 p (0 : Fin 1))
      + shapeCast S256x1 (multiReduction (F := Ideal) .add [1] S256
          (mulf (k0_pay13 (F := Ideal) (k0_pay8 (F := Ideal) x2 x3))
            (k0_pay10 (k0_pay7 x0 x1) (k0_pay9 x0 x1 x2 x3 x4) c17))
          0x00000000#32 reduces_S256x2048_S256 (.inl rfl) rfl) shapeCasts_S256_S256x1 (ix2 p (0 : Fin 1)) = _
  rw [rowsum_apply]
  refine congrArg (_ + ·) (Finset.sum_congr rfl fun k _ => ?_)
  show k0_pay13 (F := Ideal) (k0_pay8 (F := Ideal) x2 x3) (ix2 p k)
      * k0_pay10 (k0_pay7 x0 x1) (k0_pay9 x0 x1 x2 x3 x4) c17 (ix2 p k) = _
  rw [mask_apply, sim_apply]

/-- The new count of positives at a row. -/
private theorem pay15_apply (s3 : Vec Ideal S256x1 .f32) (p : Fin 256) :
    k0_pay15 (k0_pay8 (F := Ideal) x2 x3) s3 (ix2 p (0 : Fin 1))
      = s3 (ix2 p (0 : Fin 1)) + ∑ k : Fin 2048, maskB x2 x3 p k := by
  unfold k0_pay15
  rw [shapeCast_self]
  show s3 (ix2 p (0 : Fin 1))
      + shapeCast S256x1 (multiReduction (F := Ideal) .add [1] S256
          (k0_pay13 (F := Ideal) (k0_pay8 (F := Ideal) x2 x3))
          0x00000000#32 reduces_S256x2048_S256 (.inl rfl) rfl) shapeCasts_S256_S256x1 (ix2 p (0 : Fin 1)) = _
  rw [rowsum_apply]
  exact congrArg (_ + ·) (Finset.sum_congr rfl fun k _ => mask_apply x2 x3 p k)

/-- The four initial vectors, at a row: minus infinity and three zeros, the streaming computation's start. -/
theorem vinit_apply (p : Fin 256) :
    (⟨k0_pay3 (F := Ideal) (ix2 p (0 : Fin 1)), k0_pay4 (F := Ideal) (ix2 p (0 : Fin 1)),
      k0_pay5 (F := Ideal) (ix2 p (0 : Fin 1)), k0_pay6 (F := Ideal) (ix2 p (0 : Fin 1))⟩ : St) = st0 := by
  unfold k0_pay3 k0_pay4 k0_pay5 k0_pay6 st0
  simp only [shapeCast_self]
  rfl

/-- One grid point, at a row: one step of the streaming computation over the row's tile of similarities and masks. -/
theorem vstep_apply (s0 s1 s2 s3 : Vec Ideal S256x1 .f32) (p : Fin 256) :
    (⟨vM x0 x1 x2 x3 x4 s0 (ix2 p (0 : Fin 1)), vL x0 x1 x2 x3 x4 s0 s1 (ix2 p (0 : Fin 1)),
      vS x0 x1 x2 x3 x4 s2 (ix2 p (0 : Fin 1)), vN x2 x3 s3 (ix2 p (0 : Fin 1))⟩ : St)
      = step ⟨s0 (ix2 p (0 : Fin 1)), s1 (ix2 p (0 : Fin 1)), s2 (ix2 p (0 : Fin 1)), s3 (ix2 p (0 : Fin 1))⟩
          (simB x0 x1 x2 x3 x4 p) (maskB x2 x3 p) := by
  unfold vM vL vS vN
  rw [pay11_apply, pay12_apply, pay14_apply, pay15_apply]
  rfl

/-- The last tile's store, at a row: the row's loss from the four vectors. -/
theorem vOut_apply (n l sp mx : Vec Ideal S256x1 .f32) (p : Fin 256) :
    vOut x4 n l sp mx (ix2 p (0 : Fin 1))
      = fin ⟨mx (ix2 p (0 : Fin 1)), l (ix2 p (0 : Fin 1)), sp (ix2 p (0 : Fin 1)), n (ix2 p (0 : Fin 1))⟩
          (x4 (ix2 p (0 : Fin 1))) := by
  unfold vOut k0_pay2
  rw [shapeCast_self]
  rfl

end Cert.KernelIdeal.Val

end
-- ==== Proof.KBlocks.lean ====
/-
  The blocks a grid point reads, against the whole argument arrays. Point t is row block t / 16 and column tile t % 16:
  the block's row p is the arrays' row 256 * (t / 16) + p and its column k is stored sample 2048 * (t % 16) + k (the
  label and confidence columns are reshapes of the one-dimensional arguments). So a block row's similarities and mask
  values are the corresponding tile of the array row's.
-/
import proofs.«143448_j45234595561871_1_alg».proof.Proof.Gen.KernelIdeal.Frame.Runs
import proofs.«143448_j45234595561871_1_alg».proof.Proof.KNames
import proofs.«143448_j45234595561871_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Idealize.ShloMosaic Idealize.ShloMosaic.TcCoe Idealize.SL.Sem
open Idealize.ShloMosaic.ValueIdx Cert.Contrast

variable (m : (ℓ : Loc nD τ sig) → Buf (Elt Ideal) ℓ)

/-- The online features as launched. -/
abbrev aX (c : Dev nD) : (⟨2, ![2048, 128]⟩ : Shape).Idx → EReal := m ((c.tc : Thread nD τ).loc main_arg0)
/-- The online labels as launched. -/
abbrev aYon (c : Dev nD) : (⟨1, ![2048]⟩ : Shape).Idx → BitVec 32 := m ((c.tc : Thread nD τ).loc main_arg1)
/-- The stored features as launched. -/
abbrev aZ (c : Dev nD) : (⟨2, ![32768, 128]⟩ : Shape).Idx → EReal := m ((c.tc : Thread nD τ).loc main_arg2)
/-- The stored labels as launched. -/
abbrev aYoff (c : Dev nD) : (⟨1, ![32768]⟩ : Shape).Idx → BitVec 32 := m ((c.tc : Thread nD τ).loc main_arg3)
/-- The online confidences as launched. -/
abbrev aCf (c : Dev nD) : (⟨1, ![2048]⟩ : Shape).Idx → EReal := m ((c.tc : Thread nD τ).loc main_arg4)

/-- The array row under row p of point n's row block. -/
def rowOf (n : ℕ) (h : n < cfg0.N) (p : Fin 256) : Fin 2048 :=
  ⟨256 * (n / 16) + p.val, by have hN : cfg0.N = 128 := N_0; have := p.isLt; omega⟩

/-- The index maps of the five input windows over the grid: the row block is t / 16, the column tile t % 16. -/
private theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The stored sample under column k of point n's column tile. -/
private def colOf (n : ℕ) (k : Fin 2048) : Fin 32768 :=
  ⟨2048 * (n % 16) + k.val, by have := k.isLt; omega⟩

/-- The label column the region finds is the online labels, reshaped. -/
private theorem V_v0 (c : Dev nD) : (V m c main_v0 : S2048x1.Idx → BitVec 32)
    = shapeCast S2048x1 (m ((c.tc : Thread nD τ).loc main_arg1)) shapeCasts_S2048_S2048x1 := by
  show StableHlo.after hostOps0 (fun b => m (c, b)) (Proc.devRef .tc main_v0) = _
  after_results
  rfl

/-- The label row the region finds is the stored labels, reshaped. -/
private theorem V_v1 (c : Dev nD) : (V m c main_v1 : S1x32768.Idx → BitVec 32)
    = shapeCast S1x32768 (m ((c.tc : Thread nD τ).loc main_arg3)) shapeCasts_S32768_S1x32768 := by
  show StableHlo.after hostOps0 (fun b => m (c, b)) (Proc.devRef .tc main_v1) = _
  after_results
  rfl

/-- The confidence column the region finds is the online confidences, reshaped. -/
private theorem V_v2 (c : Dev nD) : (V m c main_v2 : S2048x1.Idx → EReal)
    = shapeCast S2048x1 (m ((c.tc : Thread nD τ).loc main_arg4)) shapeCasts_S2048_S2048x1 := by
  show StableHlo.after hostOps0 (fun b => m (c, b)) (Proc.devRef .tc main_v2) = _
  after_results
  rfl

/-- A column of n entries read at row r is the one-dimensional array at r. -/
private theorem col_apply {α : Type} {n : ℕ} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h (ix2 r (0 : Fin 1)) (ix1 r) (by
    rw [Shape.rowMajor_val_two, Shape.rowMajor_val_one]; show r.val = r.val * 1 + 0; omega)

/-- A row of n entries read at column q is the one-dimensional array at q. -/
private theorem row_apply {α : Type} {n : ℕ} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- Row p, feature d of the point's online block is the online array at the row under p. -/
private theorem b0_read (c : Dev nD) (t : Fin cfg0.N) (p : Fin 256) (d : Fin 128) :
    b0 m c t (ix2 p d) = aX m c (ix2 (rowOf t.val t.isLt p) d) := by
  obtain ⟨e0, e1, -⟩ := idx_facts t
  show iblk m c 0 t (ix2 p d) = _
  unfold iblk
  rw [View.read_apply]
  show V m c main_arg0 (((cfg0.win 0).blk t).view.emb (ix2 p d)) = _
  rw [V_main_arg0]
  refine congrArg _ ?_
  funext a; apply Fin.ext
  match a with
  | ⟨0, _⟩ => show win0_0.index t (0 : Fin 2) * 256 + 1 * p.val = 256 * (t.val / 16) + p.val; rw [e0]; omega
  | ⟨1, _⟩ => show win0_0.index t (1 : Fin 2) * 128 + 1 * d.val = d.val; rw [e1]; omega

/-- Row k, feature d of the point's stored block is the stored array at the sample under k. -/
private theorem b1_read (c : Dev nD) (t : Fin cfg0.N) (k : Fin 2048) (d : Fin 128) :
    b1 m c t (ix2 k d) = aZ m c (ix2 (colOf t.val k) d) := by
  obtain ⟨-, -, e0, e1, -⟩ := idx_facts t
  show iblk m c 1 t (ix2 k d) = _
  unfold iblk
  rw [View.read_apply]
  show V m c main_arg2 (((cfg0.win 1).blk t).view.emb (ix2 k d)) = _
  rw [V_main_arg2]
  refine congrArg _ ?_
  funext a; apply Fin.ext
  match a with
  | ⟨0, _⟩ => show win0_1.index t (0 : Fin 2) * 2048 + 1 * k.val = 2048 * (t.val % 16) + k.val; rw [e0]; omega
  | ⟨1, _⟩ => show win0_1.index t (1 : Fin 2) * 128 + 1 * d.val = d.val; rw [e1]; omega

/-- Row p of the point's label column is the online label of the row under p. -/
private theorem b2_read (c : Dev nD) (t : Fin cfg0.N) (p : Fin 256) :
    b2 m c t (ix2 p (0 : Fin 1)) = aYon m c (ix1 (rowOf t.val t.isLt p)) := by
  obtain ⟨-, -, -, -, e0, e1, -⟩ := idx_facts t
  show iblk m c 2 t (ix2 p (0 : Fin 1)) = _
  unfold iblk
  rw [View.read_apply]
  show V m c main_v0 (((cfg0.win 2).blk t).view.emb (ix2 p (0 : Fin 1))) = _
  rw [V_v0]
  refine (congrArg _ ?_).trans (col_apply (m ((c.tc : Thread nD τ).loc main_arg1)) shapeCasts_S2048_S2048x1 (rowOf t.val t.isLt p))
  funext a; apply Fin.ext
  match a with
  | ⟨0, _⟩ => show win0_2.index t (0 : Fin 2) * 256 + 1 * p.val = 256 * (t.val / 16) + p.val; rw [e0]; omega
  | ⟨1, _⟩ => show win0_2.index t (1 : Fin 2) * 1 + 1 * 0 = 0; rw [e1]

/-- Column k of the point's label row is the stored label of the sample under k. -/
private theorem b3_read (c : Dev nD) (t : Fin cfg0.N) (k : Fin 2048) :
    b3 m c t (ix2 (0 : Fin 1) k) = aYoff m c (ix1 (colOf t.val k)) := by
  obtain ⟨-, -, -, -, -, -, e0, e1, -⟩ := idx_facts t
  show iblk m c 3 t (ix2 (0 : Fin 1) k) = _
  unfold iblk
  rw [View.read_apply]
  show V m c main_v1 (((cfg0.win 3).blk t).view.emb (ix2 (0 : Fin 1) k)) = _
  rw [V_v1]
  refine (congrArg _ ?_).trans (row_apply (m ((c.tc : Thread nD τ).loc main_arg3)) shapeCasts_S32768_S1x32768 (colOf t.val k))
  funext a; apply Fin.ext
  match a with
  | ⟨0, _⟩ => show win0_3.index t (0 : Fin 2) * 1 + 1 * 0 = 0; rw [e0]
  | ⟨1, _⟩ => show win0_3.index t (1 : Fin 2) * 2048 + 1 * k.val = 2048 * (t.val % 16) + k.val; rw [e1]; omega

/-- Row p of the point's confidence column is the confidence of the row under p. -/
private theorem b4_read (c : Dev nD) (t : Fin cfg0.N) (p : Fin 256) :
    b4 m c t (ix2 p (0 : Fin 1)) = aCf m c (ix1 (rowOf t.val t.isLt p)) := by
  obtain ⟨-, -, -, -, -, -, -, -, e0, e1⟩ := idx_facts t
  show iblk m c 4 t (ix2 p (0 : Fin 1)) = _
  unfold iblk
  rw [View.read_apply]
  show V m c main_v2 (((cfg0.win 4).blk t).view.emb (ix2 p (0 : Fin 1))) = _
  rw [V_v2]
  refine (congrArg _ ?_).trans (col_apply (m ((c.tc : Thread nD τ).loc main_arg4)) shapeCasts_S2048_S2048x1 (rowOf t.val t.isLt p))
  funext a; apply Fin.ext
  match a with
  | ⟨0, _⟩ => show win0_4.index t (0 : Fin 2) * 256 + 1 * p.val = 256 * (t.val / 16) + p.val; rw [e0]; omega
  | ⟨1, _⟩ => show win0_4.index t (1 : Fin 2) * 1 + 1 * 0 = 0; rw [e1]

/-- A block row's scaled similarities are the point's tile of the array row's. -/
theorem simB_blk (c : Dev nD) (t : Fin cfg0.N) (p : Fin 256) :
    simB (b0 m c t) (b1 m c t) (b2 m c t) (b3 m c t) (b4 m c t) p
      = tile (simA (aX m c) (aYon m c) (aZ m c) (aYoff m c) (aCf m c) (rowOf t.val t.isLt p)) (t.val % 16) := by
  funext k
  unfold simB tile
  rw [ext_apply _ _ (by have := k.isLt; omega)]
  show _ = simA (aX m c) (aYon m c) (aZ m c) (aYoff m c) (aCf m c) (rowOf t.val t.isLt p) (colOf t.val k)
  unfold simA
  have h1 : rawB (b0 m c t) (b1 m c t) p k = rawA (aX m c) (aZ m c) (rowOf t.val t.isLt p) (colOf t.val k) := by
    unfold rawB rawA
    exact Finset.sum_congr rfl (fun d _ => by rw [b0_read, b1_read])
  have h2 : eqB (b2 m c t) (b3 m c t) p k = eqA (aYon m c) (aYoff m c) (rowOf t.val t.isLt p) (colOf t.val k) := by
    unfold eqB eqA
    rw [b2_read, b3_read]
  rw [h1, h2, b4_read]

/-- A block row's mask values are the point's tile of the array row's. -/
theorem maskB_blk (c : Dev nD) (t : Fin cfg0.N) (p : Fin 256) :
    maskB (b2 m c t) (b3 m c t) p = tile (maskA (aYon m c) (aYoff m c) (rowOf t.val t.isLt p)) (t.val % 16) := by
  funext k
  unfold maskB tile
  rw [ext_apply _ _ (by have := k.isLt; omega)]
  show _ = maskA (aYon m c) (aYoff m c) (rowOf t.val t.isLt p) (colOf t.val k)
  unfold maskA
  have h2 : eqB (b2 m c t) (b3 m c t) p k = eqA (aYon m c) (aYoff m c) (rowOf t.val t.isLt p) (colOf t.val k) := by
    unfold eqB eqA
    rw [b2_read, b3_read]
  rw [h2]

/-- A block row's confidence is the array row's. -/
theorem conf_blk (c : Dev nD) (t : Fin cfg0.N) (p : Fin 256) :
    b4 m c t (ix2 p (0 : Fin 1)) = aCf m c (ix1 (rowOf t.val t.isLt p)) := by
  exact b4_read m c t p

end Cert.KernelIdeal.Val

end
-- ==== Proof.KInv.lean ====
/-
  The invariant of the grid: after point n, which is column tile n % 16 of row block n / 16, the four carried vectors hold
  at each row what the streaming computation carries after tiles 0 to n % 16 of that array row; and the last tile's output
  block holds the rows' streamed losses.
-/
import proofs.«143448_j45234595561871_1_alg».proof.Proof.KCases
import proofs.«143448_j45234595561871_1_alg».proof.Proof.KPay
import proofs.«143448_j45234595561871_1_alg».proof.Proof.KBlocks

noncomputable section

namespace Cert.KernelIdeal.Val

open Cert.KernelIdeal Cert.KernelIdeal.Gen Idealize.ShloMosaic Idealize.ShloMosaic.TcCoe Idealize.SL.Sem
open Idealize.ShloMosaic.ValueIdx Cert.Contrast

variable (m : (ℓ : Loc nD τ sig) → Buf (Elt Ideal) ℓ)

/-- An array row's scaled similarities. -/
abbrev simRow (c : Dev nD) (r : Fin 2048) : Fin 32768 → EReal := simA (aX m c) (aYon m c) (aZ m c) (aYoff m c) (aCf m c) r
/-- An array row's mask values. -/
abbrev maskRow (c : Dev nD) (r : Fin 2048) : Fin 32768 → EReal := maskA (aYon m c) (aYoff m c) r

/-- The four carried vectors after point n, at row p of its row block. -/
def stAt (c : Dev nD) (n : ℕ) (h : n < cfg0.N) (p : Fin 256) : St :=
  ⟨(outsAt0 m c n h).2.1 (ix2 p (0 : Fin 1)), (outsAt0 m c n h).2.2.1 (ix2 p (0 : Fin 1)),
   (outsAt0 m c n h).2.2.2.1 (ix2 p (0 : Fin 1)), (outsAt0 m c n h).2.2.2.2 (ix2 p (0 : Fin 1))⟩

/-- At a row block's first column tile the carried vectors hold one step from the empty state. -/
private theorem stAt_first (c : Dev nD) (t : Fin cfg0.N) (h0 : t.val % 16 = 0) (p : Fin 256) :
    stAt m c t.val t.isLt p
      = step st0 (tile (simRow m c (rowOf t.val t.isLt p)) (t.val % 16))
          (tile (maskRow m c (rowOf t.val t.isLt p)) (t.val % 16)) := by
  unfold stAt
  rw [case_A m c t h0]
  dsimp only
  refine (vstep_apply _ _ _ _ _ _ _ _ _ p).trans ?_
  rw [vinit_apply, simB_blk, maskB_blk]

/-- At any later column tile they hold one step from what the point before left. -/
private theorem stAt_next (c : Dev nD) (t : Fin cfg0.N) (h0 : ¬t.val % 16 = 0) (p : Fin 256) :
    stAt m c t.val t.isLt p
      = step (stAt m c (t.val - 1) (Nat.lt_of_le_of_lt (Nat.sub_le _ _) t.isLt) p)
          (tile (simRow m c (rowOf t.val t.isLt p)) (t.val % 16))
          (tile (maskRow m c (rowOf t.val t.isLt p)) (t.val % 16)) := by
  unfold stAt
  by_cases h1 : t.val % 16 = 15
  · rw [case_C m c t h0 h1]
    dsimp only
    refine (vstep_apply _ _ _ _ _ _ _ _ _ p).trans ?_
    rw [simB_blk, maskB_blk]
  · rw [case_B m c t h0 h1]
    dsimp only
    refine (vstep_apply _ _ _ _ _ _ _ _ _ p).trans ?_
    rw [simB_blk, maskB_blk]

/-- After the point the vectors hold the streamed state of the point's array rows. -/
theorem stAt_eq (c : Dev nD) : ∀ (n : ℕ) (h : n < cfg0.N) (p : Fin 256),
    stAt m c n h p = foldState (simRow m c (rowOf n h p)) (maskRow m c (rowOf n h p)) (n % 16) := by
  intro n
  induction n with
  | zero =>
    intro h p
    exact stAt_first m c ⟨0, h⟩ (Nat.zero_mod _) p
  | succ n ih =>
    intro h p
    by_cases h0 : (n + 1) % 16 = 0
    · have hfirst : stAt m c (n + 1) h p
          = step st0 (tile (simRow m c (rowOf (n + 1) h p)) ((n + 1) % 16))
              (tile (maskRow m c (rowOf (n + 1) h p)) ((n + 1) % 16)) := stAt_first m c ⟨n + 1, h⟩ h0 p
      rw [hfirst, h0]
      rfl
    · have hn : n < cfg0.N := Nat.lt_of_succ_lt h
      have hstep : stAt m c (n + 1) h p
          = step (stAt m c n hn p) (tile (simRow m c (rowOf (n + 1) h p)) ((n + 1) % 16))
              (tile (maskRow m c (rowOf (n + 1) h p)) ((n + 1) % 16)) := stAt_next m c ⟨n + 1, h⟩ h0 p
      have hmod : (n + 1) % 16 = n % 16 + 1 := by omega
      have hdiv : (n + 1) / 16 = n / 16 := by omega
      have hrow : rowOf (n + 1) h p = rowOf n hn p := by
        apply Fin.ext
        show 256 * ((n + 1) / 16) + p.val = 256 * (n / 16) + p.val
        rw [hdiv]
      rw [hstep, hmod, hrow, ih hn p]
      rfl

/-- The last column tile's output block holds the rows' streamed losses. -/
theorem out_eq (c : Dev nD) (t : Fin cfg0.N) (h1 : t.val % 16 = 15) (p : Fin 256) :
    (outsAt0 m c t.val t.isLt).1 (ix2 p (0 : Fin 1))
      = kerRow (aX m c) (aYon m c) (aZ m c) (aYoff m c) (aCf m c) (rowOf t.val t.isLt p) := by
  have h0 : ¬t.val % 16 = 0 := by omega
  rw [case_C_out m c t h0 h1, vOut_apply, conf_blk]
  have hst := stAt_eq m c t.val t.isLt p
  unfold stAt at hst
  rw [hst, h1]
  rfl

end Cert.KernelIdeal.Val

end
-- ==== Proof.KFinal.lean ====
/-
  From the grid's invariant to the program's result. The output window is written back only after each row block's last
  column tile, and those eight write-backs tile the column of 2048 row losses; the two host operations after the kernel
  sum that column and divide by 2048.
-/
import proofs.«143448_j45234595561871_1_alg».proof.Proof.KInv
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx Cert.Contrast
open Idealize.ShloMosaic.Pipeline (Dat)

variable (m : (ℓ : Loc nD τ sig) → Buf (Elt Ideal) ℓ) (ρ : Dev nD → PrngReg)

/-- The output window's block index at a grid point: the point's row block, and column block 0. -/
private theorem out_index : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

/-- The column of streamed row losses, as contents of the kernel's result array. -/
private def lossCol (c : Dev nD) : Buf (Elt Ideal) ((c.tc : Thread nD τ).loc main_v3) :=
  fun (i : S2048x1.Idx) => kerRow (aX m c) (aYon m c) (aZ m c) (aYoff m c) (aCf m c) ⟨(i 0).val, idx2_lt0 i⟩

/-- The last column tile's output block at any of its indices: the second coordinate is 0. -/
private theorem out_at (c : Dev nD) (t : Fin cfg0.N) (h15 : t.val % 16 = 15) (j : S256x1.Idx) :
    (outsAt0 m c t.val t.isLt).1 j
      = kerRow (aX m c) (aYon m c) (aZ m c) (aYoff m c) (aCf m c) (rowOf t.val t.isLt (j 0)) := by
  have h1 : j 1 = (0 : Fin 1) := Fin.ext (by have h : (j 1).val < 1 := idx2_lt1 j; show (j 1).val = 0; omega)
  have hj : j = ix2 (j 0) (0 : Fin 1) := (eq_ix2 j).trans (congrArg (ix2 (j 0)) h1)
  rw [hj]
  exact out_eq m c t h15 (j 0)

/-- What a write-back point writes is its block of the column of losses. -/
private theorem flushed_eq (c : Dev nD) (t : Fin cfg0.N) (hf : (cfg0.win 5).flush t = true) :
    (dats m 0 c).flushed 5 t = ((cfg0.win 5).blk t).view.read (Elt Ideal) (lossCol m c) := by
  have h15 : t.val % 16 = 15 := (flush0_5 t).mp hf
  show (cfg0.win 5).cut (grid0.coords t) ((dats m 0 c).after 5 t) = _
  rw [after0_5]
  funext y
  rw [View.read_apply]
  refine (out_at m c t h15 (win0_5.xinj (grid0.coords t) y)).trans ?_
  unfold lossCol
  dsimp only
  congr 1
  apply Fin.ext
  show 256 * (t.val / 16) + (y 0).val = win0_5.index t (0 : Fin 2) * 256 + 1 * (y 0).val
  rw [(out_index t).1]; omega

/-- Every row of the column lies in the block written back after its row block's last column tile. -/
private theorem cover (i : S2048x1.Idx) :
    ∃ t : Fin cfg0.N, (cfg0.win 5).flush t = true ∧ i ∈ ((cfg0.win 5).blk t).view.set := by
  have hN : cfg0.N = 128 := N_0
  have h0 : (i 0).val < 2048 := idx2_lt0 i
  have h1 : (i 1).val < 1 := idx2_lt1 i
  obtain ⟨t, htv⟩ : ∃ t : Fin cfg0.N, t.val = 16 * ((i 0).val / 256) + 15 := ⟨⟨16 * ((i 0).val / 256) + 15, by omega⟩, rfl⟩
  have ht : t.val % 16 = 15 := by omega
  refine ⟨t, (flush0_5 t).mpr ht, ?_⟩
  show i ∈ ((View.whole main_v3).slice (win0_5.rect t)).set
  rw [View.set_slice_whole, Rect.mem_set_unit]
  intro a
  obtain ⟨e0, e1⟩ := out_index t
  match a with
  | ⟨0, _⟩ =>
    show win0_5.index t (0 : Fin 2) * 256 ≤ (i 0 : Nat) ∧ (i 0 : Nat) < win0_5.index t (0 : Fin 2) * 256 + 256
    rw [e0]; omega
  | ⟨1, _⟩ =>
    show win0_5.index t (1 : Fin 2) * 1 ≤ (i 1 : Nat) ∧ (i 1 : Nat) < win0_5.index t (1 : Fin 2) * 1 + 1
    rw [e1]; omega

/-- The kernel's result array ends holding the column of losses. -/
private theorem final (c : Dev nD) : (dats m 0 c).arrAt 5 cfg0.N = lossCol m c :=
  (dats m 0 c).arrAt_eq_of_cover 5 (lossCol m c) (flushed_eq m c) cover

/-- The host's sum of a 2048 x 1 column over both axes: the initial value plus the sum of its 2048 rows. -/
private theorem col_total (y : S2048x1.Idx → EReal) (init : S_.Idx → EReal) (h' : S2048x1.ReducesTo [0, 1] S_)
    (hp : 0 < S_.numel) (i : S_.Idx) :
    Host.reduceAdd (F := Ideal) (φ := .f32) y init h' hp i
      = init (Shape.Idx.first hp) + ∑ r : Fin 2048, y (ix2 r (0 : Fin 1)) := by
  simp only [Host.reduceAdd, Ideal.hostReduceAdd_def]
  rw [Ideal.hostReduceAdd_total h' (fun b => b.elim0) y _ i, sum_idx2]
  congr 1
  exact Finset.sum_congr rfl fun r _ => Fin.sum_univ_one _

/-- The two host operations after the kernel: the sum of the column over the zero, divided by 2048. -/
private theorem tail_eq (c : Dev nD) :
    Pipeline.afterTail₀ cfgs (dats m) 0 (V0 m) [hostOps1] c main_v5
      = fun _ => kerOut (aX m c) (aYon m c) (aZ m c) (aYoff m c) (aCf m c) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v3) = lossCol m c :=
    (Pipeline.withArrays_arr spec0 launch0.win.arr_inj c _ _ 5).trans (final m c)
  rw [e]
  funext i
  show Ideal.div (Host.reduceAdd (F := Ideal) (lossCol m c) (constant S_ .f32 0x00000000#32)
    reducesTo_S2048x1_S_d0_1 h_S_ i) (w 0x45000000#32) = _
  rw [col_total]
  rfl

/-- The idealized kernel program runs, ends with its one result at the mean of the streamed row losses, and leaves its
    arguments unchanged. -/
theorem kernel_run : θ_run (defs (F := Ideal)) (onTc (τ := τ) (main (F := Ideal))) ⟨m, fun _ => 0, ρ⟩ (fun r => ∀ c : Dev nD,
      r.2.mem ((c.tc : Thread nD τ).loc main_v5) = (fun _ => kerOut (aX m c) (aYon m c) (aZ m c) (aYoff m c) (aCf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (run_main m ρ)
  exact ⟨((h c).2 main_v5 (Pipeline.mem_restRefs_of main_v5 (by decide) (by decide))).trans (tail_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

end Cert.KernelIdeal.Val

end
-- ==== Proof.Consts.lean ====
/-
  The float words the two programs spell, as the extended reals they denote, and the fact that the scaled similarity
  of finite operands is finite: every denominator on the way (one plus an exponential; a weight between 0.1 and 1.0
  plus 0.01; the temperature, a positive number) is a nonzero real.
-/
import proofs.«143448_j45234595561871_1_alg».proof.Proof.Spec

noncomputable section

namespace Cert.Contrast

open Idealize.ShloMosaic

/-- The word of minus infinity denotes the bottom of the extended reals. -/
theorem w_ninf : w 0xFF800000#32 = ⊥ := by
  simp [Ideal.ofBits, Ideal.ieee]

/-- The zero word denotes zero. -/
theorem w_zero : w 0x00000000#32 = 0 := by
  simp [Ideal.ofBits, Ideal.ieee]

/-- The word of 1.0 denotes one. -/
theorem w_one : w 0x3F800000#32 = 1 := by
  simp [Ideal.ofBits, Ideal.ieee, -EReal.coe_mul]; norm_num

/-- The word of the logarithm's guard (about 1e-8) denotes a positive real. -/
theorem w_e8 : ∃ x : ℝ, 0 < x ∧ w 0x322BCC77#32 = (x : EReal) := by
  simp [Ideal.ofBits, Ideal.ieee, -EReal.coe_mul]

/-- The word of 0.07 denotes a positive real. -/
private theorem w_007 : ∃ x : ℝ, 0 < x ∧ w 0x3D8F5C29#32 = (x : EReal) := by
  simp [Ideal.ofBits, Ideal.ieee, -EReal.coe_mul]

/-- The word of 0.1 denotes a positive real. -/
private theorem w_01 : ∃ x : ℝ, 0 < x ∧ w 0x3DCCCCCD#32 = (x : EReal) := by
  simp [Ideal.ofBits, Ideal.ieee, -EReal.coe_mul]

/-- The word of 0.9 denotes a positive real. -/
private theorem w_09 : ∃ x : ℝ, 0 < x ∧ w 0x3F666666#32 = (x : EReal) := by
  simp [Ideal.ofBits, Ideal.ieee, -EReal.coe_mul]

/-- The word of 0.01 denotes a positive real. -/
private theorem w_001 : ∃ x : ℝ, 0 < x ∧ w 0x3C23D70A#32 = (x : EReal) := by
  simp [Ideal.ofBits, Ideal.ieee, -EReal.coe_mul]

/-- The word of 0.7 denotes a positive real. -/
private theorem w_07 : ∃ x : ℝ, 0 < x ∧ w 0x3F333333#32 = (x : EReal) := by
  simp [Ideal.ofBits, Ideal.ieee, -EReal.coe_mul]

/-- The word of 0.3 denotes a positive real. -/
private theorem w_03 : ∃ x : ℝ, 0 < x ∧ w 0x3E99999A#32 = (x : EReal) := by
  simp [Ideal.ofBits, Ideal.ieee, -EReal.coe_mul]

/-- The word of 2.0 denotes a positive real. -/
private theorem w_2 : ∃ x : ℝ, 0 < x ∧ w 0x40000000#32 = (x : EReal) := by
  simp [Ideal.ofBits, Ideal.ieee, -EReal.coe_mul]

/-- The quotient of a real by a nonzero real is their real quotient. -/
private theorem div_real (x y : ℝ) (hy : y ≠ 0) : Ideal.div (x : EReal) (y : EReal) = ((x / y : ℝ) : EReal) := by
  rw [Ideal.div_coe hy, ← EReal.coe_mul, mul_one_div]

/-- The similarity of a positive pair, or one minus it otherwise, is real. -/
private theorem feat_real (s : ℝ) (b : BitVec 1) :
    ∃ f : ℝ, (if b = 1 then (s : EReal) else w 0x3F800000#32 - (s : EReal)) = (f : EReal) := by
  by_cases h : b = 1
  · exact ⟨s, by rw [if_pos h]⟩
  · exact ⟨1 - s, by rw [if_neg h, w_one, EReal.coe_sub, EReal.coe_one]⟩

/-- The scaled similarity of a finite raw similarity and a finite confidence is finite. -/
theorem simOf_real (s cf : ℝ) (b : BitVec 1) : ∃ x : ℝ, simOf (s : EReal) b (cf : EReal) = (x : EReal) := by
  obtain ⟨c007, h007p, h007⟩ := w_007
  obtain ⟨c01, h01p, h01⟩ := w_01
  obtain ⟨c09, h09p, h09⟩ := w_09
  obtain ⟨c001, h001p, h001⟩ := w_001
  obtain ⟨c07, _, h07⟩ := w_07
  obtain ⟨c03, _, h03⟩ := w_03
  obtain ⟨c2, _, h2⟩ := w_2
  obtain ⟨f, hf⟩ := feat_real s b
  -- the sigmoid of a real is a positive real, so the weight plus 0.01 is a positive real
  have hwp : (0 : ℝ) < c01 + c09 * (1 + Real.exp (-((c07 * f + c03 * cf) * c2)))⁻¹ + c001 := by positivity
  have hw : (w 0x3DCCCCCD#32 + w 0x3F666666#32 * Ideal.logistic
        ((w 0x3F333333#32 * (if b = 1 then (s : EReal) else w 0x3F800000#32 - (s : EReal))
          + w 0x3E99999A#32 * (cf : EReal)) * w 0x40000000#32)) + w 0x3C23D70A#32
      = ((c01 + c09 * (1 + Real.exp (-((c07 * f + c03 * cf) * c2)))⁻¹ + c001 : ℝ) : EReal) := by
    rw [hf, h01, h09, h07, h03, h2, h001, ← EReal.coe_mul, ← EReal.coe_mul, ← EReal.coe_add, ← EReal.coe_mul,
      Ideal.logistic_coe, ← EReal.coe_mul, ← EReal.coe_add, ← EReal.coe_add]
  -- the temperature is a positive real
  have htp : (0 : ℝ) < c007 / (c01 + c09 * (1 + Real.exp (-((c07 * f + c03 * cf) * c2)))⁻¹ + c001) :=
    div_pos h007p hwp
  refine ⟨s / (c007 / (c01 + c09 * (1 + Real.exp (-((c07 * f + c03 * cf) * c2)))⁻¹ + c001)), ?_⟩
  rw [simOf, hw, h007, div_real _ _ hwp.ne', div_real _ _ htp.ne']

/-- A mask value is finite. -/
theorem maskOf_real (b : BitVec 1) : ∃ x : ℝ, maskOf b = (x : EReal) := ⟨_, rfl⟩

end Cert.Contrast

end
-- ==== Proof.RefValue.lean ====
/-
  The reference program's result, read one operation at a time: the mean over the rows of each row's loss computed
  directly — the raw similarity a sum of products over the feature axis, the mask the label comparison as a number, the
  scaled similarity the same expression of them as the kernel's, the row's maximum a fold of max from minus infinity,
  the sums of exponentials, of mask values and of weighted log-probabilities plain sums over the row's 32768 columns.
-/
import proofs.«143448_j45234595561871_1_alg».proof.Proof.RefReadP
import proofs.«143448_j45234595561871_1_alg».proof.Proof.Spec
import proofs.«143448_j45234595561871_1_alg».proof.Proof.Consts
import Idealize.ShloMosaic.Lib.ValueIdxRank1
import Idealize.ShloMosaic.PureOps.Reduce

noncomputable section

namespace Cert.Contrast.Ref

open Cert.ReferenceIdeal Cert.ReferenceIdeal.Gen Cert.ReferenceIdeal.ReadP Idealize.ShloMosaic Idealize.ShloMosaic.ValueIdx
open Cert.Contrast

section Rows

variable (x0 : (⟨S2048x128, .f32⟩ : BufTy).Contents (Elt Ideal)) (x1 : (⟨S2048, .i32⟩ : BufTy).Contents (Elt Ideal))
    (x2 : (⟨S32768x128, .f32⟩ : BufTy).Contents (Elt Ideal)) (x3 : (⟨S32768, .i32⟩ : BufTy).Contents (Elt Ideal))
    (x4 : (⟨S2048, .f32⟩ : BufTy).Contents (Elt Ideal))

/-- The raw similarity: the sum over the feature axis of the products. -/
private theorem raw_eq (r : Fin 2048) (q : Fin 32768) : val_main_v1 (F := Ideal) x0 x2 (ix2 r q) = rawA x0 x2 r q := by
  rw [val_main_v1_apply]
  unfold rawA
  refine Finset.sum_congr rfl fun d _ => ?_
  rw [val_main_v0_apply]
  have e1 : lidx_main_v1 (ix2 r q) d = ix2 r d :=
    funext fun a => Fin.ext (by match a with | ⟨0, _⟩ => rfl | ⟨1, _⟩ => rfl)
  have e2 : idx_main_v0 (ridx_main_v1 (ix2 r q) d) = ix2 q d :=
    funext fun a => Fin.ext (by match a with | ⟨0, _⟩ => rfl | ⟨1, _⟩ => rfl)
  rw [e1, e2]

/-- The label comparison. -/
private theorem eq_eq (r : Fin 2048) (q : Fin 32768) : val_main_v6 (F := Ideal) x1 x3 (ix2 r q) = eqA x1 x3 r q := by
  rw [val_main_v6_apply, val_main_v4_apply, val_main_v5_apply, val_main_v2_apply, val_main_v3_apply]
  unfold eqA
  have e1 : idx_main_v2 (idx_main_v4 (ix2 r q)) = ix1 r :=
    funext fun a => Fin.ext (by match a with | ⟨0, _⟩ => rfl)
  have e2 : idx_main_v3 (idx_main_v5 (ix2 r q)) = ix1 q :=
    funext fun a => Fin.ext (by match a with | ⟨0, _⟩ => rfl)
  rw [e1, e2]

/-- The mask: the comparison bit as a number. -/
private theorem mask_eq (r : Fin 2048) (q : Fin 32768) : val_main_v7 (F := Ideal) x1 x3 (ix2 r q) = maskOf (eqA x1 x3 r q) := by
  rw [val_main_v7_apply, eq_eq]
  rfl

/-- The word of 0.5 denotes one half. -/
private theorem w_half : Ideal.ofBits .f32 0x3F000000#32 = ((1 / 2 : ℝ) : EReal) := by
  simp [Ideal.ofBits, Ideal.ieee, -EReal.coe_mul]; norm_num

/-- A bit as a number lies above one half exactly when the bit is one. -/
private theorem gt_half (b : BitVec 1) :
    Ideal.cmp .ogt ((b.toNat : ℝ) : EReal) (Ideal.ofBits .f32 0x3F000000#32) = b := by
  rw [w_half]
  rcases BitVec.eq_zero_or_eq_one b with rfl | rfl
  · have h : ¬ (((1 / 2 : ℝ) : EReal) < (((0#1 : BitVec 1).toNat : ℝ) : EReal)) := by
      rw [EReal.coe_lt_coe_iff]; norm_num
    show BitVec.ofBool (decide (_ < _)) = _
    rw [decide_eq_false h]; rfl
  · have h : (((1 / 2 : ℝ) : EReal) < (((1#1 : BitVec 1).toNat : ℝ) : EReal)) := by
      rw [EReal.coe_lt_coe_iff]; norm_num
    show BitVec.ofBool (decide (_ < _)) = _
    rw [decide_eq_true h]; rfl

/-- The mask above one half is the comparison bit itself. -/
private theorem where_eq (r : Fin 2048) (q : Fin 32768) : val_main_v9 (F := Ideal) x1 x3 (ix2 r q) = eqA x1 x3 r q := by
  rw [val_main_v9_apply, mask_eq, val_main_v8_apply, val_main_cst_apply]
  exact gt_half _

/-- The scaled similarity. -/
private theorem sim_eq (r : Fin 2048) (q : Fin 32768) :
    val_main_v36 (F := Ideal) x0 x1 x2 x3 x4 (ix2 r q) = simA x0 x1 x2 x3 x4 r q := by
  have e : idx_main_v15 (idx_main_v18 (ix2 r q)) = ix1 r :=
    funext fun a => Fin.ext (by match a with | ⟨0, _⟩ => rfl)
  have h1 : Ideal.ofBits .f32 0x3F800000#32 = 1 := w_one
  simp only [val_main_v36_apply, val_main_v35_apply, val_main_v34_apply, val_main_cst_9_apply, val_main_v33_apply,
    val_main_v32_apply, val_main_cst_8_apply, val_main_v31_apply, val_main_v30_apply, val_main_cst_7_apply,
    val_main_v29_apply, val_main_v28_apply, val_main_cst_6_apply, val_main_v27_apply, val_main_v26_apply,
    val_main_cst_5_apply, val_main_v25_apply, val_main_v24_apply, val_main_cst_4_apply, val_main_v23_apply,
    val_main_v22_apply, val_main_v21_apply, val_main_v20_apply, val_main_cst_3_apply, val_main_v19_apply,
    val_main_v18_apply, val_main_v17_apply, val_main_v16_apply, val_main_cst_2_apply, val_main_v15_apply, e,
    val_main_v14_apply, val_main_v13_apply, val_main_cst_1_apply, val_main_v12_apply, where_eq, val_main_v11_apply,
    val_main_v10_apply, val_main_cst_0_apply, raw_eq]
  simp only [Ideal.hostDivf_def, Ideal.mulf_def, Ideal.addf_def, Ideal.subf_def, Ideal.hostNegf_def, Ideal.negf_def,
    Ideal.hostUnary_exp_def, Ideal.ofBits_def]
  unfold simA simOf Ideal.logistic Scalar.select
  rw [h1, w_one]

/-- On the extended reals the maximum is commutative and associative. -/
private instance : Std.Commutative (FloatOps.maximumf (F := Ideal) (φ := .f32)) := ⟨fun a b => max_comm a b⟩
private instance : Std.Associative (FloatOps.maximumf (F := Ideal) (φ := .f32)) := ⟨fun a b c => max_assoc a b c⟩

/-- The row's maximum: the fold of max from minus infinity over the row's scaled similarities. -/
private theorem rowmax_eq (r : Fin 2048) :
    val_main_v37 (F := Ideal) x0 x1 x2 x3 x4 (ix1 r)
      = (Finset.univ : Finset (Fin 32768)).fold max (w 0xFF800000#32) (simA x0 x1 x2 x3 x4 r) := by
  unfold val_main_v37
  generalize hy : val_main_v36 (F := Ideal) x0 x1 x2 x3 x4 = y
  have hR : S2048x32768.Reduces [1] S2048 := by decide
  rw [Host.reduce_eq_fold_single (FloatOps.maximumf (F := Ideal) (φ := .f32)) y _ reducesTo_S2048x32768_S2048_d1 hR h_S_
    (ix1 r)]
  have hf : (y ∘ hR.lift (ix1 r)) = simA x0 x1 x2 x3 x4 r := funext fun (k : Fin 32768) => by
    have hl : hR.lift (ix1 r) k = ix2 r k :=
      funext fun a => Fin.ext (by match a with | ⟨0, _⟩ => rfl | ⟨1, _⟩ => rfl)
    show y (hR.lift (ix1 r) k) = _
    rw [hl, ← hy, sim_eq]
  rw [hf, val_main_cst_10_apply]
  rfl

/-- A scaled similarity less the row's maximum. -/
private theorem sub_eq (r : Fin 2048) (q : Fin 32768) :
    val_main_v40 (F := Ideal) x0 x1 x2 x3 x4 (ix2 r q)
      = simA x0 x1 x2 x3 x4 r q
        - (Finset.univ : Finset (Fin 32768)).fold max (w 0xFF800000#32) (simA x0 x1 x2 x3 x4 r) := by
  have e : idx_main_v38 (idx_main_v39 (ix2 r q)) = ix1 r :=
    funext fun a => Fin.ext (by match a with | ⟨0, _⟩ => rfl)
  rw [val_main_v40_apply, sim_eq, val_main_v39_apply, val_main_v38_apply, e, rowmax_eq]
  rfl

/-- The sum of the row's exponentials relative to its maximum. -/
private theorem sumexp_eq (r : Fin 2048) :
    val_main_v42 (F := Ideal) x0 x1 x2 x3 x4 (ix1 r)
      = w 0x00000000#32 + ∑ q : Fin 32768, Ideal.exp (simA x0 x1 x2 x3 x4 r q
        - (Finset.univ : Finset (Fin 32768)).fold max (w 0xFF800000#32) (simA x0 x1 x2 x3 x4 r)) := by
  rw [val_main_v42_apply, val_main_cst_11_apply]
  refine congrArg₂ (· + ·) rfl (Finset.sum_congr rfl fun k _ => ?_)
  have e : idx_main_v42 (ix1 r) k = ix2 r k :=
    funext fun a => Fin.ext (by match a with | ⟨0, _⟩ => rfl | ⟨1, _⟩ => rfl)
  rw [e, val_main_v41_apply, sub_eq]
  rfl

/-- A log-probability: the similarity less the maximum less the logarithm of the guarded sum of exponentials. -/
private theorem logp_eq (r : Fin 2048) (q : Fin 32768) :
    val_main_v48 (F := Ideal) x0 x1 x2 x3 x4 (ix2 r q)
      = (simA x0 x1 x2 x3 x4 r q
          - (Finset.univ : Finset (Fin 32768)).fold max (w 0xFF800000#32) (simA x0 x1 x2 x3 x4 r))
        - Ideal.log ((w 0x00000000#32 + ∑ q' : Fin 32768, Ideal.exp (simA x0 x1 x2 x3 x4 r q'
          - (Finset.univ : Finset (Fin 32768)).fold max (w 0xFF800000#32) (simA x0 x1 x2 x3 x4 r)))
          + w 0x322BCC77#32) := by
  have e : idx_main_v43 (idx_main_v47 (ix2 r q)) = ix1 r :=
    funext fun a => Fin.ext (by match a with | ⟨0, _⟩ => rfl)
  rw [val_main_v48_apply, sub_eq, val_main_v47_apply, val_main_v46_apply, val_main_v45_apply, val_main_v43_apply, e,
    sumexp_eq, val_main_v44_apply, val_main_cst_12_apply]
  simp only [Ideal.subf_def, Ideal.hostUnary_log_def, Ideal.addf_def, Ideal.ofBits_def]

/-- The count of the row's positives. -/
private theorem count_eq (r : Fin 2048) :
    val_main_v49 (F := Ideal) x1 x3 (ix1 r) = w 0x00000000#32 + ∑ q : Fin 32768, maskA x1 x3 r q := by
  rw [val_main_v49_apply, val_main_cst_13_apply]
  refine congrArg₂ (· + ·) rfl (Finset.sum_congr rfl fun k _ => ?_)
  have e : idx_main_v49 (ix1 r) k = ix2 r k :=
    funext fun a => Fin.ext (by match a with | ⟨0, _⟩ => rfl | ⟨1, _⟩ => rfl)
  rw [e, mask_eq]
  rfl

/-- The divisor: the count, or one when the count is below the threshold. -/
private theorem npc_eq (r : Fin 2048) :
    val_main_v53 (F := Ideal) x1 x3 (ix1 r) = npc (w 0x00000000#32 + ∑ q : Fin 32768, maskA x1 x3 r q) := by
  rw [val_main_v53_apply, val_main_v51_apply, count_eq, val_main_v50_apply, val_main_cst_14_apply, val_main_v52_apply,
    val_main_cst_15_apply]
  rfl

/-- The confidence-weighted sum of the positives' log-probabilities. -/
private theorem wsum_eq (r : Fin 2048) :
    val_main_v58 (F := Ideal) x0 x1 x2 x3 x4 (ix1 r)
      = w 0x00000000#32 + ∑ q : Fin 32768, (x4 (ix1 r) * maskA x1 x3 r q)
        * ((simA x0 x1 x2 x3 x4 r q
            - (Finset.univ : Finset (Fin 32768)).fold max (w 0xFF800000#32) (simA x0 x1 x2 x3 x4 r))
          - Ideal.log ((w 0x00000000#32 + ∑ q' : Fin 32768, Ideal.exp (simA x0 x1 x2 x3 x4 r q'
            - (Finset.univ : Finset (Fin 32768)).fold max (w 0xFF800000#32) (simA x0 x1 x2 x3 x4 r)))
            + w 0x322BCC77#32)) := by
  rw [val_main_v58_apply, val_main_cst_16_apply]
  refine congrArg₂ (· + ·) rfl (Finset.sum_congr rfl fun k _ => ?_)
  have e : idx_main_v58 (ix1 r) k = ix2 r k :=
    funext fun a => Fin.ext (by match a with | ⟨0, _⟩ => rfl | ⟨1, _⟩ => rfl)
  have e2 : idx_main_v54 (idx_main_v55 (ix2 r k)) = ix1 r :=
    funext fun a => Fin.ext (by match a with | ⟨0, _⟩ => rfl)
  rw [e, val_main_v57_apply, val_main_v56_apply, val_main_v55_apply, val_main_v54_apply, e2, mask_eq, logp_eq]
  rfl

/-- A row's loss. -/
private theorem row_eq (r : Fin 2048) : val_main_v60 (F := Ideal) x0 x1 x2 x3 x4 (ix1 r) = refRowA x0 x1 x2 x3 x4 r := by
  rw [val_main_v60_apply, val_main_v59_apply, wsum_eq, npc_eq]
  rfl

end Rows

/-- The reference's result array (one element) holds the mean of the directly computed row losses. -/
theorem ref_val (x0 : (⟨S2048x128, .f32⟩ : BufTy).Contents (Elt Ideal)) (x1 : (⟨S2048, .i32⟩ : BufTy).Contents (Elt Ideal))
    (x2 : (⟨S32768x128, .f32⟩ : BufTy).Contents (Elt Ideal)) (x3 : (⟨S32768, .i32⟩ : BufTy).Contents (Elt Ideal))
    (x4 : (⟨S2048, .f32⟩ : BufTy).Contents (Elt Ideal)) :
    val_main_v62 (F := Ideal) x0 x1 x2 x3 x4 = fun _ => refOut x0 x1 x2 x3 x4 := by
  funext i
  have hs : ∑ j : S2048.Idx, val_main_v60 (F := Ideal) x0 x1 x2 x3 x4 j = ∑ r : Fin 2048, refRowA x0 x1 x2 x3 x4 r :=
    (Equiv.sum_comp (idxEquiv1 (n := 2048)).symm (fun j => val_main_v60 (F := Ideal) x0 x1 x2 x3 x4 j)).symm.trans
      (Finset.sum_congr rfl fun r _ => row_eq x0 x1 x2 x3 x4 r)
  rw [val_main_v62_apply, val_main_v61_apply, val_main_cst_17_apply, val_main_cst_18_apply, hs]
  rfl

end Cert.Contrast.Ref

end
-- ==== Proof.Online.lean ====
/-
  Streaming a row tile by tile gives the row's loss computed directly, when every similarity, mask value and the
  confidence are finite. The running maximum after the last tile is the row's maximum; the rescaled sum of exponentials is
  the sum of exponentials relative to that maximum, because exp (a - b) * exp (x - a) = exp (x - b) on the reals and the
  first tile's rescale factor exp (-∞ - m) is zero; the two plain sums are the row's sums split into sixteen pieces; and
  conf * (S - n * M - n * L) = ∑ (conf * mask) * ((s - M) - L) by distributing over the row.
-/
import proofs.«143448_j45234595561871_1_alg».proof.Proof.Spec
import proofs.«143448_j45234595561871_1_alg».proof.Proof.Consts
import Mathlib.Data.Finset.Fold
import Mathlib.Data.EReal.Basic
import Mathlib.Data.EReal.Operations
import Mathlib.Data.Fintype.BigOperators
import Mathlib.Algebra.BigOperators.Group.Finset.Basic
import Mathlib.Analysis.SpecialFunctions.Log.Basic

noncomputable section

namespace Cert.Contrast

open Idealize.ShloMosaic Idealize.ShloMosaic.ValueIdx

/-- The coercion of a finite sum of reals is the sum of the coercions. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real that bounds finitely many reals and is one of them is their maximum, also when the maximum is taken in the
    extended reals starting from minus infinity. -/
private theorem fold_max_coe {ι : Type} (t : Finset ι) (f : ι → ℝ) (M : ℝ)
    (hle : ∀ i ∈ t, f i ≤ M) (hat : ∃ i ∈ t, f i = M) :
    t.fold max (⊥ : EReal) (fun i => (f i : EReal)) = (M : EReal) := by
  apply le_antisymm
  · rw [Finset.fold_max_le]
    exact ⟨bot_le, fun i hi => EReal.coe_le_coe_iff.2 (hle i hi)⟩
  · rw [Finset.le_fold_max]
    obtain ⟨i, hi, rfl⟩ := hat
    exact Or.inr ⟨i, hi, le_rfl⟩

/-- The maximum of two reals, coerced. -/
private theorem coe_max' (a b : ℝ) : max (a : EReal) (b : EReal) = ((max a b : ℝ) : EReal) :=
  (EReal.coe_strictMono.monotone.map_max).symm

/-- A nonempty tile of reals has a maximum. -/
private theorem tile_max {n : ℕ} (hn : 0 < n) (a : Fin n → ℝ) : ∃ Mt : ℝ, (∀ k, a k ≤ Mt) ∧ ∃ k, a k = Mt := by
  haveI : Nonempty (Fin n) := ⟨⟨0, hn⟩⟩
  obtain ⟨k0, -, hk0⟩ := Finset.exists_max_image (Finset.univ : Finset (Fin n)) a Finset.univ_nonempty
  exact ⟨a k0, fun k => hk0 k (Finset.mem_univ k), k0, rfl⟩

/-- One tile of real values on a state of real values, computed in the reals. -/
private theorem step_coe {n : ℕ} (M D P C : ℝ) (a b : Fin n → ℝ) (Mt : ℝ)
    (hle : ∀ k, a k ≤ Mt) (hat : ∃ k, a k = Mt) :
    step ⟨(M : EReal), (D : EReal), (P : EReal), (C : EReal)⟩ (fun k => (a k : EReal)) (fun k => (b k : EReal))
      = ⟨((max M Mt : ℝ) : EReal),
         ((Real.exp (M - max M Mt) * D + ∑ k, Real.exp (a k - max M Mt) : ℝ) : EReal),
         ((P + ∑ k, b k * a k : ℝ) : EReal), ((C + ∑ k, b k : ℝ) : EReal)⟩ := by
  have hf : (Finset.univ : Finset (Fin n)).fold max (⊥ : EReal) (fun k => (a k : EReal)) = (Mt : EReal) :=
    fold_max_coe _ a Mt (fun k _ => hle k) (by obtain ⟨k, hk⟩ := hat; exact ⟨k, Finset.mem_univ k, hk⟩)
  unfold step
  simp only [w_ninf, hf, coe_max', ← EReal.coe_sub, Ideal.exp_coe, ← EReal.coe_mul, ← coe_sum, ← EReal.coe_add]

/-- The first tile: from the empty state the rescale factor is exp (-∞) = 0. -/
private theorem step0_coe {n : ℕ} (a b : Fin n → ℝ) (Mt : ℝ)
    (hle : ∀ k, a k ≤ Mt) (hat : ∃ k, a k = Mt) :
    step st0 (fun k => (a k : EReal)) (fun k => (b k : EReal))
      = ⟨(Mt : EReal), ((∑ k, Real.exp (a k - Mt) : ℝ) : EReal),
         ((∑ k, b k * a k : ℝ) : EReal), ((∑ k, b k : ℝ) : EReal)⟩ := by
  have hf : (Finset.univ : Finset (Fin n)).fold max (⊥ : EReal) (fun k => (a k : EReal)) = (Mt : EReal) :=
    fold_max_coe _ a Mt (fun k _ => hle k) (by obtain ⟨k, hk⟩ := hat; exact ⟨k, Finset.mem_univ k, hk⟩)
  unfold step st0
  simp only [w_ninf, w_zero, hf, max_eq_right bot_le, EReal.bot_sub, Ideal.exp_bot, mul_zero, zero_add,
    ← EReal.coe_sub, Ideal.exp_coe, ← EReal.coe_mul, ← coe_sum]

/-- What the streaming computation carries after the columns below n, for real similarities S and mask values Mu:
    the maximum M of S below n, the sum of exp (S q - M), the sum of Mu q * S q and the sum of Mu q. -/
private def Inv (S Mu : ℕ → ℝ) (n : ℕ) (st : St) : Prop :=
  ∃ M : ℝ, (∀ q, q < n → S q ≤ M) ∧ (∃ q, q < n ∧ S q = M) ∧
    st = ⟨(M : EReal), ((∑ q ∈ Finset.range n, Real.exp (S q - M) : ℝ) : EReal),
          ((∑ q ∈ Finset.range n, Mu q * S q : ℝ) : EReal), ((∑ q ∈ Finset.range n, Mu q : ℝ) : EReal)⟩

/-- After the first tile the state describes the columns of that tile. -/
private theorem inv_first (S Mu : ℕ → ℝ) {m : ℕ} (hm : 0 < m) (sv mv : Fin m → EReal)
    (hsv : ∀ k, sv k = (S k.val : EReal)) (hmv : ∀ k, mv k = (Mu k.val : EReal)) :
    Inv S Mu m (step st0 sv mv) := by
  obtain ⟨Mt, hle, k0, hk0⟩ := tile_max hm (fun k : Fin m => S k.val)
  have e1 : sv = fun k => ((S k.val : ℝ) : EReal) := funext hsv
  have e2 : mv = fun k => ((Mu k.val : ℝ) : EReal) := funext hmv
  refine ⟨Mt, fun q hq => hle ⟨q, hq⟩, ⟨k0.val, k0.isLt, hk0⟩, ?_⟩
  have h1 : ∑ k : Fin m, Real.exp (S k.val - Mt) = ∑ q ∈ Finset.range m, Real.exp (S q - Mt) :=
    Fin.sum_univ_eq_sum_range (fun q => Real.exp (S q - Mt)) m
  have h2 : ∑ k : Fin m, Mu k.val * S k.val = ∑ q ∈ Finset.range m, Mu q * S q :=
    Fin.sum_univ_eq_sum_range (fun q => Mu q * S q) m
  have h3 : ∑ k : Fin m, Mu k.val = ∑ q ∈ Finset.range m, Mu q :=
    Fin.sum_univ_eq_sum_range (fun q => Mu q) m
  rw [e1, e2, step0_coe (fun k : Fin m => S k.val) (fun k : Fin m => Mu k.val) Mt hle ⟨k0, hk0⟩, h1, h2, h3]

/-- One more tile: the state that describes the columns below n describes, after a tile of m columns from n on, the
    columns below n + m. The old exponentials are rescaled by exp (M - M') * exp (x - M) = exp (x - M'). -/
private theorem inv_step (S Mu : ℕ → ℝ) {n m : ℕ} (hm : 0 < m) (st : St) (h : Inv S Mu n st) (sv mv : Fin m → EReal)
    (hsv : ∀ k, sv k = (S (n + k.val) : EReal)) (hmv : ∀ k, mv k = (Mu (n + k.val) : EReal)) :
    Inv S Mu (n + m) (step st sv mv) := by
  obtain ⟨M, hM, ⟨q0, hq0, hq0M⟩, rfl⟩ := h
  obtain ⟨Mt, hle, k0, hk0⟩ := tile_max hm (fun k : Fin m => S (n + k.val))
  have e1 : sv = fun k => ((S (n + k.val) : ℝ) : EReal) := funext hsv
  have e2 : mv = fun k => ((Mu (n + k.val) : ℝ) : EReal) := funext hmv
  refine ⟨max M Mt, ?_, ?_, ?_⟩
  · intro q hq
    by_cases hqn : q < n
    · exact le_trans (hM q hqn) (le_max_left _ _)
    · have hq' : q = n + (q - n) := by omega
      have hk : q - n < m := by omega
      rw [hq']
      exact le_trans (hle ⟨q - n, hk⟩) (le_max_right _ _)
  · by_cases hc : M ≤ Mt
    · exact ⟨n + k0.val, by have := k0.isLt; omega, by rw [max_eq_right hc]; exact hk0⟩
    · exact ⟨q0, by omega, by rw [max_eq_left (le_of_not_ge hc)]; exact hq0M⟩
  · have h1 : ∑ k : Fin m, Real.exp (S (n + k.val) - max M Mt)
        = ∑ q ∈ Finset.range m, Real.exp (S (n + q) - max M Mt) :=
      Fin.sum_univ_eq_sum_range (fun q => Real.exp (S (n + q) - max M Mt)) m
    have h2 : ∑ k : Fin m, Mu (n + k.val) * S (n + k.val) = ∑ q ∈ Finset.range m, Mu (n + q) * S (n + q) :=
      Fin.sum_univ_eq_sum_range (fun q => Mu (n + q) * S (n + q)) m
    have h3 : ∑ k : Fin m, Mu (n + k.val) = ∑ q ∈ Finset.range m, Mu (n + q) :=
      Fin.sum_univ_eq_sum_range (fun q => Mu (n + q)) m
    have h4 : Real.exp (M - max M Mt) * ∑ q ∈ Finset.range n, Real.exp (S q - M)
        = ∑ q ∈ Finset.range n, Real.exp (S q - max M Mt) := by
      rw [Finset.mul_sum]
      refine Finset.sum_congr rfl fun q _ => ?_
      rw [← Real.exp_add]
      congr 1
      ring
    rw [e1, e2, step_coe M _ _ _ (fun k : Fin m => S (n + k.val)) (fun k : Fin m => Mu (n + k.val)) Mt hle ⟨k0, hk0⟩,
      h1, h2, h3, h4, Finset.sum_range_add, Finset.sum_range_add, Finset.sum_range_add]

/-- After tiles 0 to j the state describes the columns below 2048 * (j + 1). -/
private theorem inv_fold (s mu : Fin 32768 → EReal) (S Mu : ℕ → ℝ)
    (hS : ∀ q, ext s q = (S q : EReal)) (hMu : ∀ q, ext mu q = (Mu q : EReal)) (j : ℕ) :
    Inv S Mu (2048 * (j + 1)) (foldState s mu j) := by
  induction j with
  | zero =>
    have h := inv_first S Mu (m := 2048) (by norm_num) (tile s 0) (tile mu 0)
      (fun k => by rw [← hS]; simp only [tile, Nat.mul_zero, Nat.zero_add])
      (fun k => by rw [← hMu]; simp only [tile, Nat.mul_zero, Nat.zero_add])
    simpa only [foldState, Nat.zero_add, Nat.mul_one] using h
  | succ j ih =>
    have h := inv_step S Mu (m := 2048) (by norm_num) _ ih (tile s (j + 1)) (tile mu (j + 1))
      (fun k => hS _) (fun k => hMu _)
    have e : 2048 * (j + 1 + 1) = 2048 * (j + 1) + 2048 := by ring
    rw [e]
    exact h

/-- From the state that describes all N columns the loss is the direct loss: the two logarithms are the same real
    logarithm (their argument is a sum of exponentials plus a positive guard), and
    c * ((P - C * M) - C * L) = ∑ (c * Mu q) * ((S q - M) - L) by distributing over the columns. -/
private theorem fin_eq_refRow (S Mu : ℕ → ℝ) (c : ℝ) (N : ℕ) (st : St) (h : Inv S Mu N st) :
    fin st (c : EReal)
      = refRow (fun q : Fin N => (S q.val : EReal)) (fun q : Fin N => (Mu q.val : EReal)) (c : EReal) := by
  obtain ⟨M, hM, ⟨q0, hq0, hq0M⟩, rfl⟩ := h
  obtain ⟨e8, he8pos, he8⟩ := w_e8
  have hfold : (Finset.univ : Finset (Fin N)).fold max (⊥ : EReal) (fun q => (S q.val : EReal)) = (M : EReal) :=
    fold_max_coe _ (fun q : Fin N => S q.val) M (fun q _ => hM q.val q.isLt) ⟨⟨q0, hq0⟩, Finset.mem_univ _, hq0M⟩
  have hDnn : 0 ≤ ∑ q ∈ Finset.range N, Real.exp (S q - M) := Finset.sum_nonneg fun q _ => (Real.exp_pos _).le
  have hlog : Ideal.log (((∑ q ∈ Finset.range N, Real.exp (S q - M) : ℝ) : EReal) + (e8 : EReal))
      = ((Real.log ((∑ q ∈ Finset.range N, Real.exp (S q - M)) + e8) : ℝ) : EReal) := by
    rw [← EReal.coe_add, Ideal.log_coe, if_neg (not_le.2 (by positivity))]
  have h1 : ∑ q : Fin N, Real.exp (S q.val - M) = ∑ q ∈ Finset.range N, Real.exp (S q - M) :=
    Fin.sum_univ_eq_sum_range (fun q => Real.exp (S q - M)) N
  have h2 : ∑ q : Fin N, Mu q.val = ∑ q ∈ Finset.range N, Mu q :=
    Fin.sum_univ_eq_sum_range (fun q => Mu q) N
  unfold fin refRow
  simp only [w_zero, w_ninf, he8, hfold, zero_add, zero_sub, ← EReal.coe_sub, Ideal.exp_coe, ← coe_sum, h1, h2, hlog,
    ← EReal.coe_mul, ← EReal.coe_neg]
  have h3 : ∀ L : ℝ, ∑ i : Fin N, c * Mu i.val * (S i.val - M - L)
      = c * (∑ q ∈ Finset.range N, Mu q * S q - (∑ q ∈ Finset.range N, Mu q) * M
          - (∑ q ∈ Finset.range N, Mu q) * L) := by
    intro L
    have e : ∀ q : ℕ, c * Mu q * (S q - M - L) = c * (Mu q * S q) - (c * M) * Mu q - (c * L) * Mu q :=
      fun q => by ring
    rw [Fin.sum_univ_eq_sum_range (fun q => c * Mu q * (S q - M - L)) N]
    simp only [e, Finset.sum_sub_distrib, ← Finset.mul_sum]
    ring
  rw [h3]

/-- The streamed loss of a row of finite similarities, finite mask values and finite confidence is its direct loss. -/
theorem online_eq (s mu : Fin 32768 → EReal) (cf : EReal)
    (hs : ∀ q, ∃ x : ℝ, s q = (x : EReal)) (hmu : ∀ q, ∃ x : ℝ, mu q = (x : EReal)) (hcf : ∃ x : ℝ, cf = (x : EReal)) :
    fin (foldState s mu 15) cf = refRow s mu cf := by
  have hS : ∀ q : ℕ, ∃ x : ℝ, ext s q = (x : EReal) := fun q => by
    by_cases h : q < 32768
    · rw [ext_apply s q h]
      exact hs _
    · exact ⟨0, by unfold ext; rw [dif_neg h]; rfl⟩
  have hMu : ∀ q : ℕ, ∃ x : ℝ, ext mu q = (x : EReal) := fun q => by
    by_cases h : q < 32768
    · rw [ext_apply mu q h]
      exact hmu _
    · exact ⟨0, by unfold ext; rw [dif_neg h]; rfl⟩
  choose S hS' using hS
  choose Mu hMu' using hMu
  obtain ⟨c, rfl⟩ := hcf
  have es : s = fun q : Fin 32768 => (S q.val : EReal) :=
    funext fun q => (hS' q.val).symm.trans (ext_apply s q.val q.isLt) |>.symm
  have emu : mu = fun q : Fin 32768 => (Mu q.val : EReal) :=
    funext fun q => (hMu' q.val).symm.trans (ext_apply mu q.val q.isLt) |>.symm
  have h := inv_fold s mu S Mu hS' hMu' 15
  have e : 2048 * (15 + 1) = 32768 := by norm_num
  rw [e] at h
  have key := fin_eq_refRow S Mu c 32768 _ h
  rw [← es, ← emu] at key
  exact key

/-- So over finite arrays the two means of row losses are one number. -/
theorem kerOut_eq_refOut (X : (⟨2, ![2048, 128]⟩ : Shape).Idx → EReal) (Yon : (⟨1, ![2048]⟩ : Shape).Idx → BitVec 32)
    (Z : (⟨2, ![32768, 128]⟩ : Shape).Idx → EReal) (Yoff : (⟨1, ![32768]⟩ : Shape).Idx → BitVec 32)
    (Cf : (⟨1, ![2048]⟩ : Shape).Idx → EReal)
    (hX : ∀ i, ∃ x : ℝ, X i = (x : EReal)) (hZ : ∀ i, ∃ x : ℝ, Z i = (x : EReal)) (hCf : ∀ i, ∃ x : ℝ, Cf i = (x : EReal)) :
    kerOut X Yon Z Yoff Cf = refOut X Yon Z Yoff Cf := by
  choose xr hxr using hX
  choose zr hzr using hZ
  choose cr hcr using hCf
  have hrow : ∀ r : Fin 2048, kerRow X Yon Z Yoff Cf r = refRowA X Yon Z Yoff Cf r := by
    intro r
    unfold kerRow refRowA
    refine online_eq _ _ _ (fun q => ?_) (fun q => maskOf_real _) ⟨cr (ix1 r), hcr _⟩
    have hraw : rawA X Z r q = ((∑ d : Fin 128, xr (ix2 r d) * zr (ix2 q d) : ℝ) : EReal) := by
      unfold rawA
      simp only [hxr, hzr, ← EReal.coe_mul, ← coe_sum]
    show ∃ x : ℝ, simOf (rawA X Z r q) (eqA Yon Yoff r q) (Cf (ix1 r)) = (x : EReal)
    rw [hraw, hcr]
    exact simOf_real _ _ _
  unfold kerOut refOut
  rw [Finset.sum_congr rfl fun r _ => hrow r]

end Cert.Contrast

end
-- ==== Proof.Finite.lean ====
/-
  The precondition, decoded: when the printed finiteness test of the three float arguments is all ones, every entry of
  the online features, the stored features and the confidences is a real number (its absolute value lies strictly below
  plus infinity, so it is neither infinity).
-/
import proofs.«143448_j45234595561871_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Contrast

open Idealize.ShloMosaic

/-- A rank-zero array has one index. -/
private instance : Subsingleton Cert.Pre_finite_inputs.S_.Idx := ⟨fun _ _ => funext fun d => d.elim0⟩

/-- The word of plus infinity denotes the top of the extended reals. -/
private theorem w_pinf : Ideal.ofBits .f32 0x7F800000#32 = ⊤ := by
  simp [Ideal.ofBits, Ideal.ieee]

/-- An extended real whose absolute value lies strictly below plus infinity is a real: at either infinity the
    absolute value is plus infinity itself. -/
private theorem real_of_abs_lt (x : EReal)
    (h : Ideal.cmp .olt (max x (-x)) (Ideal.ofBits .f32 0x7F800000#32) = 1#1) : ∃ r : ℝ, x = (r : EReal) := by
  rw [w_pinf] at h
  induction x using EReal.rec with
  | bot => simp [Ideal.cmp] at h
  | coe r => exact ⟨r, rfl⟩
  | top => simp [Ideal.cmp] at h

/-- All ones from the finiteness test means every float entry is real. -/
theorem finite_of_pre [hP : Cert.Pre_finite_inputs.Facts]
    (a0 : FVec Ideal Cert.Pre_finite_inputs.S2048x128 .f32) (a1 : IVec Cert.Pre_finite_inputs.S2048 32)
    (a2 : FVec Ideal Cert.Pre_finite_inputs.S32768x128 .f32) (a3 : IVec Cert.Pre_finite_inputs.S32768 32)
    (a4 : FVec Ideal Cert.Pre_finite_inputs.S2048 .f32)
    (h : Cert.Pre_finite_inputs.fn (F := Ideal) a0 a1 a2 a3 a4 = (fun _ => 1#1)) :
    (∀ i, ∃ x : ℝ, a0 i = (x : EReal)) ∧ (∀ i, ∃ x : ℝ, a2 i = (x : EReal)) ∧ (∀ i, ∃ x : ℝ, a4 i = (x : EReal)) := by
  have h0 := congrFun h ValueIdx.ix0
  dsimp only [Cert.Pre_finite_inputs.fn] at h0
  -- the conjunction of the three tests is one, so each test is one
  obtain ⟨h01, h4⟩ := IntOp.andi_eq_one.1 h0
  obtain ⟨h00, h2⟩ := IntOp.andi_eq_one.1 h01
  -- a test that is one holds at every entry, and there it says the absolute value is below plus infinity
  refine ⟨fun i => ?_, fun i => ?_, fun i => ?_⟩
  · exact real_of_abs_lt _ (Host.reduce_andi_all _ _ _ _ _ h00 i)
  · exact real_of_abs_lt _ (Host.reduce_andi_all _ _ _ _ _ h2 i)
  · exact real_of_abs_lt _ (Host.reduce_andi_all _ _ _ _ _ h4 i)

end Cert.Contrast

end
-- ==== Proof.lean ====
/-
  The certificate of the confidence-weighted contrastive loss.

  The kernel streams each online row over sixteen tiles of 2048 stored samples, carrying the row's running maximum, the
  sum of exponentials rescaled to it, the sum of positive similarities and the count of positives, and writes the row's
  loss after the last tile; the program then averages the 2048 row losses. The reference computes every row's loss directly
  over all 32768 stored samples and averages. Over the extended reals, with every float input finite, the two are the same
  number: the streamed maximum is the row's maximum, the rescaled sum is the sum of exponentials relative to it, and the
  weighted sum of log-probabilities over the positives distributes into the three carried sums.

  The three frames are the generated ones (the reference's is its run with the result dropped); the idealization rewrote
  nothing; the algebraic claim joins the kernel's run, read through the grid's invariant, and the reference's run, read one
  operation at a time, by the streaming identity.
-/
import proofs.«143448_j45234595561871_1_alg».proof.Defs
import proofs.«143448_j45234595561871_1_alg».proof.Proof.Gen.Kernel
import proofs.«143448_j45234595561871_1_alg».proof.Proof.Gen.Kernel.Skeleton
import proofs.«143448_j45234595561871_1_alg».proof.Proof.Gen.Kernel.Launch
import proofs.«143448_j45234595561871_1_alg».proof.Proof.Gen.Kernel.Points
import proofs.«143448_j45234595561871_1_alg».proof.Proof.Gen.Kernel.Frame
import proofs.«143448_j45234595561871_1_alg».proof.Proof.Gen.KernelIdeal
import proofs.«143448_j45234595561871_1_alg».proof.Proof.Gen.KernelIdeal.Skeleton
import proofs.«143448_j45234595561871_1_alg».proof.Proof.Gen.KernelIdeal.Launch
import proofs.«143448_j45234595561871_1_alg».proof.Proof.Gen.KernelIdeal.Points
import proofs.«143448_j45234595561871_1_alg».proof.Proof.Gen.KernelIdeal.Frame
import proofs.«143448_j45234595561871_1_alg».proof.Proof.Gen.ReferenceIdeal
import proofs.«143448_j45234595561871_1_alg».proof.Proof.Gen.Pre_finite_inputs
import proofs.«143448_j45234595561871_1_alg».proof.Proof.KFinal
import proofs.«143448_j45234595561871_1_alg».proof.Proof.RefValue
import proofs.«143448_j45234595561871_1_alg».proof.Proof.Online
import proofs.«143448_j45234595561871_1_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on finite arguments both programs end with the mean of the rows' losses: the kernel's streamed
    one, the reference's direct one, equal by the streaming identity. -/
theorem algebraic : Cert.algebraic_KernelIdeal_ReferenceIdeal := by
  intro m ρ m' ρ' hpre hagree
  refine ⟨fun c => fun _ => Cert.Contrast.kerOut (Cert.KernelIdeal.Val.aX m c) (Cert.KernelIdeal.Val.aYon m c)
    (Cert.KernelIdeal.Val.aZ m c) (Cert.KernelIdeal.Val.aYoff m c) (Cert.KernelIdeal.Val.aCf m c),
    Cert.KernelIdeal.Val.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hZ, hCf⟩ := Cert.Contrast.finite_of_pre _ _ _ _ _ (hpre c)
  rw [Cert.ReferenceIdeal.ReadP.val_main_v62_eq, Cert.Contrast.Ref.ref_val, (hagree c).1, (hagree c).2.1,
    (hagree c).2.2.1, (hagree c).2.2.2.1, (hagree c).2.2.2.2]
  funext _
  exact (Cert.Contrast.kerOut_eq_refOut _ _ _ _ _ hX hZ hCf).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
